-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S2048x2048 : Shape := ⟨2, ![2048, 2048]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S4x2048x1024 .f32) (main_arg1 : FVec F S3072x1024 .f32) (main_arg2 : FVec F S1024x1024 .f32) (main_arg3 : FVec F S1024 .f32) (main_arg4 : FVec F S2048x2048 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S2048x2048 : Shape := ⟨2, ![2048, 2048]⟩
abbrev S8192x1024 : Shape := ⟨2, ![8192, 1024]⟩
abbrev S1024x3072 : Shape := ⟨2, ![1024, 3072]⟩
abbrev S8192x3072 : Shape := ⟨2, ![8192, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S64x2048x64 : Shape := ⟨3, ![64, 2048, 64]⟩
abbrev S1x1024x64 : Shape := ⟨3, ![1, 1024, 64]⟩
abbrev S1x2048x64 : Shape := ⟨3, ![1, 2048, 64]⟩
abbrev S1024x2048 : Shape := ⟨2, ![1024, 2048]⟩
abbrev S1024x64 : Shape := ⟨2, ![1024, 64]⟩
abbrev S2048x64 : Shape := ⟨2, ![2048, 64]⟩
abbrev S64x2048 : Shape := ⟨2, ![64, 2048]⟩
abbrev S1024x1 : Shape := ⟨2, ![1024, 1]⟩
abbrev S4x2048x16x64 : Shape := ⟨4, ![4, 2048, 16, 64]⟩
abbrev S1x1024 : Shape := ⟨2, ![1, 1024]⟩

abbrev nBuf : Space → Nat
  | .hbm => 30
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S2048x2048, .f32⟩
  | .hbm, ⟨5, _⟩ => ⟨S8192x1024, .f32⟩
  | .hbm, ⟨6, _⟩ => ⟨S1024x3072, .f32⟩
  | .hbm, ⟨7, _⟩ => ⟨S1024x3072, .bf16⟩
  | .hbm, ⟨8, _⟩ => ⟨S8192x3072, .bf16⟩
  | .hbm, ⟨9, _⟩ => ⟨S4x2048x3x16x64, .bf16⟩
  | .hbm, ⟨10, _⟩ => ⟨S3x4x16x2048x64, .bf16⟩
  | .hbm, ⟨11, _⟩ => ⟨S1x4x16x2048x64, .bf16⟩
  | .hbm, ⟨12, _⟩ => ⟨S4x16x2048x64, .bf16⟩
  | .hbm, ⟨13, _⟩ => ⟨S64x2048x64, .bf16⟩
  | .hbm, ⟨14, _⟩ => ⟨S1x4x16x2048x64, .bf16⟩
  | .hbm, ⟨15, _⟩ => ⟨S4x16x2048x64, .bf16⟩
  | .hbm, ⟨16, _⟩ => ⟨S64x2048x64, .bf16⟩
  | .hbm, ⟨17, _⟩ => ⟨S1x4x16x2048x64, .bf16⟩
  | .hbm, ⟨18, _⟩ => ⟨S4x16x2048x64, .bf16⟩
  | .hbm, ⟨19, _⟩ => ⟨S64x2048x64, .bf16⟩
  | .hbm, ⟨20, _⟩ => ⟨S2048x2048, .bf16⟩
  | .hbm, ⟨21, _⟩ => ⟨S64x2048x64, .bf16⟩
  | .hbm, ⟨22, _⟩ => ⟨S4x16x2048x64, .bf16⟩
  | .hbm, ⟨23, _⟩ => ⟨S4x2048x16x64, .bf16⟩
  | .hbm, ⟨24, _⟩ => ⟨S8192x1024, .bf16⟩
  | .hbm, ⟨25, _⟩ => ⟨S1024x1024, .f32⟩
  | .hbm, ⟨26, _⟩ => ⟨S1024x1024, .bf16⟩
  | .hbm, ⟨27, _⟩ => ⟨S1x1024, .f32⟩
  | .hbm, ⟨28, _⟩ => ⟨S8192x1024, .f32⟩
  | .hbm, ⟨29, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1024x2048, .bf16⟩
  | .local _ .vmem, ⟨13, _⟩ => ⟨S1024x2048, .bf16⟩
  | .local _ .vmem, ⟨14, _⟩ => ⟨S1x1024x64, .bf16⟩
  | .local _ .vmem, ⟨15, _⟩ => ⟨S1x1024x64, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1024x1024, .f32⟩
  | .local _ .vmem, ⟨21, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 64], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  transposes_S3072x1024_S1024x3072_1_0 : S3072x1024.Transposes [1, 0] S1024x3072
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S8192x3072_S4x2048x3x16x64 : S8192x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  shapeCasts_S4x16x2048x64_S64x2048x64 : S4x16x2048x64.ShapeCasts S64x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S64x2048x64_S4x16x2048x64 : S64x2048x64.ShapeCasts S4x16x2048x64
  transposes_S4x16x2048x64_S4x2048x16x64_0_2_1_3 : S4x16x2048x64.Transposes [0, 2, 1, 3] S4x2048x16x64
  shapeCasts_S4x2048x16x64_S8192x1024 : S4x2048x16x64.ShapeCasts S8192x1024
  transposes_S1024x1024_S1024x1024_1_0 : S1024x1024.Transposes [1, 0] S1024x1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x1024_S4x2048x1024 : S8192x1024.ShapeCasts S4x2048x1024
  dot_S1024x1024_S1024x1024_S1024x1024_1_0_0_1_n_n_wf : DotDims.WF S1024x1024 S1024x1024 S1024x1024 [1] [0] [0] [1] [] []
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x3072.size a
  hwx0_2 : ∀ i : grid0.Coords, EltTy.bits .bf16 = 32 ∨ (Rect.block (s := S8192x3072) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S64x2048x64.size a
  hwx1_0 : ∀ i : grid1.Coords, EltTy.bits .bf16 = 32 ∨ (Rect.block (s := S64x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S64x2048x64.size a
  hwx1_1 : ∀ i : grid1.Coords, EltTy.bits .bf16 = 32 ∨ (Rect.block (s := S64x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S64x2048x64.size a
  hwx1_2 : ∀ i : grid1.Coords, EltTy.bits .bf16 = 32 ∨ (Rect.block (s := S64x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S2048x2048.size a
  hwx1_3 : ∀ i : grid1.Coords, EltTy.bits .bf16 = 32 ∨ (Rect.block (s := S2048x2048) S1024x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x64.size a ≤ S64x2048x64.size a
  hwx1_4 : ∀ i : grid1.Coords, EltTy.bits .bf16 = 32 ∨ (Rect.block (s := S64x2048x64) S1x1024x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1024x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v19) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S2048x2048 : Shape := ⟨2, ![2048, 2048]⟩
abbrev S4x2048x3072 : Shape := ⟨3, ![4, 2048, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S1x1x2048x2048 : Shape := ⟨4, ![1, 1, 2048, 2048]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S2048x2048, .f32⟩
  | .hbm, ⟨5, _⟩ => ⟨S4x2048x3072, .f32⟩
  | .hbm, ⟨6, _⟩ => ⟨S4x2048x3x16x64, .f32⟩
  | .hbm, ⟨7, _⟩ => ⟨S3x4x16x2048x64, .f32⟩
  | .hbm, ⟨8, _⟩ => ⟨S1x4x16x2048x64, .f32⟩
  | .hbm, ⟨9, _⟩ => ⟨S4x16x2048x64, .f32⟩
  | .hbm, ⟨10, _⟩ => ⟨S1x4x16x2048x64, .f32⟩
  | .hbm, ⟨11, _⟩ => ⟨S4x16x2048x64, .f32⟩
  | .hbm, ⟨12, _⟩ => ⟨S1x4x16x2048x64, .f32⟩
  | .hbm, ⟨13, _⟩ => ⟨S4x16x2048x64, .f32⟩
  | .hbm, ⟨14, _⟩ => ⟨S4x16x2048x2048, .f32⟩
  | .hbm, ⟨15, _⟩ => ⟨S_, .f32⟩
  | .hbm, ⟨16, _⟩ => ⟨S4x16x2048x2048, .f32⟩
  | .hbm, ⟨17, _⟩ => ⟨S4x16x2048x2048, .f32⟩
  | .hbm, ⟨18, _⟩ => ⟨S1x1x2048x2048, .f32⟩
  | .hbm, ⟨19, _⟩ => ⟨S4x16x2048x2048, .f32⟩
  | .hbm, ⟨20, _⟩ => ⟨S4x16x2048x2048, .f32⟩
  | .hbm, ⟨21, _⟩ => ⟨S_, .f32⟩
  | .hbm, ⟨22, _⟩ => ⟨S4x16x2048, .f32⟩
  | .hbm, ⟨23, _⟩ => ⟨S_, .f32⟩
  | .hbm, ⟨24, _⟩ => ⟨S4x16x2048, .f32⟩
  | .hbm, ⟨25, _⟩ => ⟨S4x16x2048, .f32⟩
  | .hbm, ⟨26, _⟩ => ⟨S4x16x2048x1, .f32⟩
  | .hbm, ⟨27, _⟩ => ⟨S4x16x2048x2048, .f32⟩
  | .hbm, ⟨28, _⟩ => ⟨S4x16x2048x2048, .f32⟩
  | .hbm, ⟨29, _⟩ => ⟨S4x16x2048x2048, .f32⟩
  | .hbm, ⟨30, _⟩ => ⟨S_, .f32⟩
  | .hbm, ⟨31, _⟩ => ⟨S4x16x2048, .f32⟩
  | .hbm, ⟨32, _⟩ => ⟨S4x16x2048x1, .f32⟩
  | .hbm, ⟨33, _⟩ => ⟨S4x16x2048x2048, .f32⟩
  | .hbm, ⟨34, _⟩ => ⟨S4x16x2048x2048, .f32⟩
  | .hbm, ⟨35, _⟩ => ⟨S4x16x2048x64, .f32⟩
  | .hbm, ⟨36, _⟩ => ⟨S4x2048x16x64, .f32⟩
  | .hbm, ⟨37, _⟩ => ⟨S4x2048x1024, .f32⟩
  | .hbm, ⟨38, _⟩ => ⟨S4x2048x1024, .f32⟩
  | .hbm, ⟨39, _⟩ => ⟨S1x1x1024, .f32⟩
  | .hbm, ⟨40, _⟩ => ⟨S4x2048x1024, .f32⟩
  | .hbm, ⟨41, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  shapeCasts_S4x2048x3072_S4x2048x3x16x64 : S4x2048x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  bcast_S_S4x16x2048x2048 : S_.BroadcastsInDim S4x16x2048x2048 (![] : Fin 0 → Fin S4x16x2048x2048.rank)
  bcast_S2048x2048_S1x1x2048x2048_2_3 : S2048x2048.BroadcastsInDim S1x1x2048x2048 (![2, 3] : Fin 2 → Fin S1x1x2048x2048.rank)
  bcast_S1x1x2048x2048_S4x16x2048x2048_0_1_2_3 : S1x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.Spec.lean ====
/-
  The mathematics of the kernel and of its reference, as functions of arrays read index by index over the extended reals.

  Multi-head self-attention with an additive bias shared by every batch and head: batch 4, sequence 2048, width 1024,
  16 heads of 64 features.  A row of the input is projected to 3072 features (queries, keys, values: feature
  `s * 1024 + h * 64 + d` is head `h`'s coordinate `d` of part `s`); a head's scores are the scaled products of queries
  and keys plus the bias; a row of scores is shifted by its maximum, exponentiated and normalised by its sum; the
  normalised weights average the values; the heads are laid side by side and projected once more, plus a bias vector.

  The kernel computes this in three tiled stages (a matrix product, the attention of one head at a time, a matrix product
  plus a row vector); the stages are stated here over whatever arrays they are given (`mm`, `att1`, `mmb`).  The whole
  computation is stated over the five argument arrays twice: `attK` divides the weighted sum of the values by the row's
  sum, as the kernel does; `attR` divides each weight first, as the reference does.  The two agree when the scores are
  real numbers (module Softmax).
-/
import Idealize.ShloMosaic.PureOps.Ideal
import Idealize.ShloMosaic.Lib.ValueIdx

noncomputable section

namespace Cert.Attn.Spec

open Idealize.ShloMosaic Idealize.ShloMosaic.ValueIdx

/-- The scale `1/8 = 64^(-1/2)` both programs multiply the scores by, as the word they both print. -/
abbrev eighth : EReal := Ideal.ofBits .f32 0x3E000000#32
/-- The value a row's maximum is folded from: the word of `-∞`. -/
abbrev ninf : EReal := Ideal.ofBits .f32 0xFF800000#32

/-! ## Positions: rows, heads, features -/

/-- Row `b * 2048 + n` of the flattened batch × sequence axis. -/
def row (b : Fin 4) (n : Fin 2048) : Fin 8192 := ⟨b.val * 2048 + n.val, by omega⟩
/-- Batch × head `b * 16 + h`. -/
def bhd (b : Fin 4) (h : Fin 16) : Fin 64 := ⟨b.val * 16 + h.val, by omega⟩
/-- Column `h * 64 + d` of the 1024 attention features. -/
def col (h : Fin 16) (d : Fin 64) : Fin 1024 := ⟨h.val * 64 + d.val, by omega⟩
/-- Projected feature `s * 1024 + h * 64 + d`: part `s` (0 queries, 1 keys, 2 values), head `h`, coordinate `d`. -/
def feat (s : Fin 3) (h : Fin 16) (d : Fin 64) : Fin 3072 := ⟨s.val * 1024 + h.val * 64 + d.val, by omega⟩

/-! ## The three stages, over the arrays they are given -/

/-- A matrix product `[8192, 1024] × [1024, 3072]` at row `r`, column `f`. -/
def mm (A : (⟨2, ![8192, 1024]⟩ : Shape).Idx → EReal) (B : (⟨2, ![1024, 3072]⟩ : Shape).Idx → EReal)
    (r : Fin 8192) (f : Fin 3072) : EReal :=
  ∑ k : Fin 1024, A (ix2 r k) * B (ix2 k f)

section Att1
variable (q k v : (⟨3, ![64, 2048, 64]⟩ : Shape).Idx → EReal) (g : (⟨2, ![2048, 2048]⟩ : Shape).Idx → EReal)

/-- Head `bh`'s score of query row `n` against key row `m`. -/
def sc1 (bh : Fin 64) (n m : Fin 2048) : EReal :=
  (∑ e : Fin 64, q (ix3 bh n e) * k (ix3 bh m e)) * eighth + g (ix2 n m)
/-- The maximum of a row of scores, folded from `-∞`. -/
def mx1 (bh : Fin 64) (n : Fin 2048) : EReal :=
  (Finset.univ : Finset (Fin 2048)).fold max ninf (fun m => sc1 q k g bh n m)
/-- The exponential of a score shifted by its row's maximum. -/
def pe1 (bh : Fin 64) (n m : Fin 2048) : EReal := Ideal.exp (sc1 q k g bh n m - mx1 q k g bh n)
/-- The sum of a row of those exponentials. -/
def den1 (bh : Fin 64) (n : Fin 2048) : EReal := ∑ m : Fin 2048, pe1 q k g bh n m
/-- One head's attention: the exponentials' weighted sum of the values, divided by the row's sum. -/
def att1 (bh : Fin 64) (n : Fin 2048) (d : Fin 64) : EReal :=
  Ideal.div (∑ m : Fin 2048, pe1 q k g bh n m * v (ix3 bh m d)) (den1 q k g bh n)
end Att1

section AttBlock
variable (q : (⟨3, ![1, 1024, 64]⟩ : Shape).Idx → EReal) (k v : (⟨3, ![1, 2048, 64]⟩ : Shape).Idx → EReal)
  (g : (⟨2, ![1024, 2048]⟩ : Shape).Idx → EReal)

/-- One tile of the attention stage (1024 query rows of one head against all 2048 keys): the score of the tile's
    query row `n` against key row `m`. -/
def scB (n : Fin 1024) (m : Fin 2048) : EReal :=
  (∑ e : Fin 64, q (ix3 (0 : Fin 1) n e) * k (ix3 (0 : Fin 1) m e)) * eighth + g (ix2 n m)
/-- The maximum of the tile's row `n` of scores, folded from `-∞`. -/
def mxB (n : Fin 1024) : EReal := (Finset.univ : Finset (Fin 2048)).fold max ninf (fun m => scB q k g n m)
/-- The exponential of a score shifted by its row's maximum. -/
def peB (n : Fin 1024) (m : Fin 2048) : EReal := Ideal.exp (scB q k g n m - mxB q k g n)
/-- The sum of a row of those exponentials. -/
def denB (n : Fin 1024) : EReal := ∑ m : Fin 2048, peB q k g n m
/-- What the tile writes at row `n`, coordinate `d`. -/
def attB (n : Fin 1024) (d : Fin 64) : EReal :=
  Ideal.div (∑ m : Fin 2048, peB q k g n m * v (ix3 (0 : Fin 1) m d)) (denB q k g n)
end AttBlock

/-- A matrix product `[8192, 1024] × [1024, 1024]` plus a row vector, at row `r`, column `o`. -/
def mmb (A : (⟨2, ![8192, 1024]⟩ : Shape).Idx → EReal) (B : (⟨2, ![1024, 1024]⟩ : Shape).Idx → EReal)
    (bb : (⟨2, ![1, 1024]⟩ : Shape).Idx → EReal) (r : Fin 8192) (o : Fin 1024) : EReal :=
  (∑ k : Fin 1024, A (ix2 r k) * B (ix2 k o)) + bb (ix2 (0 : Fin 1) o)

/-! ## The whole computation, over the argument arrays -/

section Whole
variable (x : (⟨3, ![4, 2048, 1024]⟩ : Shape).Idx → EReal) (w : (⟨2, ![3072, 1024]⟩ : Shape).Idx → EReal)
  (g : (⟨2, ![2048, 2048]⟩ : Shape).Idx → EReal)

/-- The projection of row `(b, n)` at feature `f`. -/
def qkv (b : Fin 4) (n : Fin 2048) (f : Fin 3072) : EReal := ∑ c : Fin 1024, x (ix3 b n c) * w (ix2 f c)
/-- Head `(b, h)`'s score of query row `n` against key row `m`. -/
def sc (b : Fin 4) (h : Fin 16) (n m : Fin 2048) : EReal :=
  (∑ e : Fin 64, qkv x w b n (feat 0 h e) * qkv x w b m (feat 1 h e)) * eighth + g (ix2 n m)
/-- The maximum of a row of scores, folded from `-∞`. -/
def mx (b : Fin 4) (h : Fin 16) (n : Fin 2048) : EReal :=
  (Finset.univ : Finset (Fin 2048)).fold max ninf (fun m => sc x w g b h n m)
/-- The exponential of a score shifted by its row's maximum. -/
def pe (b : Fin 4) (h : Fin 16) (n m : Fin 2048) : EReal := Ideal.exp (sc x w g b h n m - mx x w g b h n)
/-- The sum of a row of those exponentials. -/
def den (b : Fin 4) (h : Fin 16) (n : Fin 2048) : EReal := ∑ m : Fin 2048, pe x w g b h n m
/-- Attention with the division LAST: the weighted sum of the values over the row's sum. -/
def attK (b : Fin 4) (h : Fin 16) (n : Fin 2048) (d : Fin 64) : EReal :=
  Ideal.div (∑ m : Fin 2048, pe x w g b h n m * qkv x w b m (feat 2 h d)) (den x w g b h n)
/-- Attention with the division FIRST: each weight over the row's sum, then the weighted sum of the values. -/
def attR (b : Fin 4) (h : Fin 16) (n : Fin 2048) (d : Fin 64) : EReal :=
  ∑ m : Fin 2048, Ideal.div (pe x w g b h n m) (den x w g b h n) * qkv x w b m (feat 2 h d)
end Whole

/-- The output projection of an attention `att`: the heads side by side (column `c` is head `c / 64`, coordinate
    `c % 64`), times the projection matrix's row `o`, plus the bias. -/
def out (att : Fin 4 → Fin 16 → Fin 2048 → Fin 64 → EReal)
    (wp : (⟨2, ![1024, 1024]⟩ : Shape).Idx → EReal) (bp : (⟨1, ![1024]⟩ : Shape).Idx → EReal)
    (b : Fin 4) (n : Fin 2048) (o : Fin 1024) : EReal :=
  (∑ c : Fin 1024, att b ⟨c.val / 64, by omega⟩ n ⟨c.val % 64, by omega⟩ * wp (ix2 o c)) + bp (ix1 o)

end Cert.Attn.Spec

end
-- ==== Proof.Reg0.lean ====
/-
  Stage 1 (the projection to queries, keys and values): the array the first tiled matrix product leaves, index by index.
-/
import proofs.«420827_j28252294873693_3_alg».proof.Proof.Gen.KernelIdeal.Frame
import proofs.«420827_j28252294873693_3_alg».proof.Proof.Spec
import Idealize.ShloMosaic.PureOps.Ideal.Laws
import Idealize.ShloMosaic.Lib.Pipeline.Value

set_option maxRecDepth 16384

noncomputable section

namespace Cert.Attn.Reg0

open Cert.KernelIdeal Cert.KernelIdeal.Gen Cert.Attn.Spec
open Idealize.ShloMosaic Idealize.ShloMosaic.TcCoe Idealize.ShloMosaic.ValueIdx Idealize.SL.Sem
open Idealize.ShloMosaic.Pipeline (Dat Cfg Window)

/-! ## One tile's arithmetic: a 1024 × 1024 by 1024 × 1024 product -/

/-- The product's left factor is read at the output's row … -/
theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- … and the summed position; -/
theorem lhs_mid (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- the right factor at the summed position … -/
theorem rhs_mid (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- … and the output's column. -/
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- What one grid point computes from its two tiles: entry `(p, q)` is the sum over the 1024 inner positions `k` of
    the left tile's `(p, k)` times the right tile's `(k, q)` (the changes of float format are the identity on the
    extended reals, and the accumulator starts at zero). -/
theorem tile_apply (x0 : FVec Ideal S1024x1024 .f32) (x1 : FVec Ideal S1024x1024 .bf16) (p q : Fin 1024) :
    k0_pay1 (F := Ideal) x0 x1 (ix2 p q) = ∑ k : Fin 1024, x0 (ix2 p k) * x1 (ix2 k q) := by
  unfold k0_pay1
  simp only [shapeCast_self]
  refine (Ideal.matmul_constant_zero_apply dot_S1024x1024_S1024x1024_S1024x1024_1_0_0_1_n_n none _ _ (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_row _ _
    | ⟨1, _⟩ => exact (lhs_mid _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_mid _ _).trans hk
    | ⟨1, _⟩ => exact rhs_col _ _)
  rw [el, er]
  rfl

/-! ## The whole array: every tile is a tile of one matrix product -/

/-- The product of the two operand arrays as one function of the output array's index. -/
def prodAt (A : S8192x1024.Idx → EReal) (B : S1024x3072.Idx → EReal) : S8192x3072.Idx → EReal :=
  fun i => mm A B ⟨(i 0).val, idx2_lt0 i⟩ ⟨(i 1).val, idx2_lt1 i⟩

/-- If a left tile's row `j 0` is row `i 0` of `A` and a right tile's column `j 1` is column `i 1` of `B`, the
    tile's entry `j` is the product's entry `i`: the two sums run over the same 1024 inner positions, term by term. -/
theorem tile_eq (x0 : FVec Ideal S1024x1024 .f32) (x1 : FVec Ideal S1024x1024 .bf16)
    (A : S8192x1024.Idx → EReal) (B : S1024x3072.Idx → EReal) (j : S1024x1024.Idx) (i : S8192x3072.Idx)
    (h0 : ∀ k : Fin 1024, x0 (ix2 ⟨(j 0).val, idx2_lt0 j⟩ k) = A (ix2 ⟨(i 0).val, idx2_lt0 i⟩ k))
    (h1 : ∀ k : Fin 1024, x1 (ix2 k ⟨(j 1).val, idx2_lt1 j⟩) = B (ix2 k ⟨(i 1).val, idx2_lt1 i⟩)) :
    k0_pay1 (F := Ideal) x0 x1 j = prodAt A B i := by
  obtain ⟨p, q, rfl⟩ : ∃ (p q : Fin 1024), j = ix2 p q := ⟨j 0, j 1, eq_ix2 j⟩
  rw [tile_apply]
  unfold prodAt mm
  exact Finset.sum_congr rfl fun k _ => by rw [← h0 k, ← h1 k]

theorem zero_offsets : (![0, 0] : Fin 2 → Nat) = fun _ => 0 :=
  funext fun a => by match a with | ⟨0, _⟩ => rfl | ⟨1, _⟩ => rfl

/-- The grid's index maps, decided over its 24 points: the left operand's tile follows the output tile's row block
    and sits in column block 0, the right operand's tile sits in row block 0 and follows the output tile's column block. -/
theorem blocks_at : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2) :=
  (by decide +kernel : ∀ t : Fin grid0.N, _)

/-- Every one of the 8 × 3 output tiles is some point's. -/
theorem blocks_onto : ∀ (q0 : Fin 8) (q1 : Fin 3), ∃ t : Fin cfg0.N, win0_2.index t = ![q0.val, q1.val] :=
  (by decide +kernel : ∀ (q0 : Fin 8) (q1 : Fin 3), ∃ t : Fin grid0.N, win0_2.index t = ![q0.val, q1.val])

section
variable (V : (c : Dev nD) → (b : Ref sig .tc) → Buf (Elt Ideal) ((c : Thread nD τ).loc b))

/-- What grid point `t` writes back is its tile of the product of the two operand arrays: the left tile holds the
    rows of `A` the output tile's rows name and all 1024 columns, the right tile all 1024 rows of `B` and the columns the
    output tile's columns name (an entry of a block sits at block index × 1024 + its place inside the block). -/
theorem tile_written (c : Dev nD) (t : Fin cfg0.N) :
    (dat0 (F := Ideal) V c).flushed 2 t = ((cfg0.win 2).blk t).view.read (Elt Ideal) (prodAt (V c main_v0) (V c main_v2)) := by
  show (cfg0.win 2).cut (grid0.coords t) ((dat0 V c).after 2 t) = _
  rw [after0_2]
  unfold out0_2
  rw [View.canon_unit_zero zero_offsets]
  simp only [View.ld_unit_zero (S := S1024x1024) zero_offsets]
  obtain ⟨e0, e1, e2, e3⟩ := blocks_at t
  funext j
  show k0_pay1 (F := Ideal) (iblk0 V c 0 t) (iblk0 V c 1 t) j = prodAt (V c main_v0) (V c main_v2) (((cfg0.win 2).blk t).view.emb j)
  refine tile_eq (iblk0 V c 0 t) (iblk0 V c 1 t) (V c main_v0) (V c main_v2) j (((cfg0.win 2).blk t).view.emb j) (fun k => ?_) (fun k => ?_)
  · show V c main_v0 (((cfg0.win 0).blk t).view.emb (ix2 ⟨(j 0).val, idx2_lt0 j⟩ k)) = V c main_v0 _
    refine congrArg (V c main_v0) (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * k.val = k.val; omega
  · show V c main_v2 (((cfg0.win 1).blk t).view.emb (ix2 k ⟨(j 1).val, idx2_lt1 j⟩)) = V c main_v2 _
    refine congrArg (V c main_v2) (funext fun a => Fin.ext ?_)
    match a with
    | ⟨0, _⟩ => show win0_1.index t (0 : Fin 2) * 1024 + 1 * k.val = k.val; omega
    | ⟨1, _⟩ => show win0_1.index t (1 : Fin 2) * 1024 + 1 * (j 1).val = win0_2.index t (1 : Fin 2) * 1024 + 1 * (j 1).val; omega

end

/-- An index of the output array is in point `t`'s tile iff, on each axis, it lies in the 1024 places the tile's block
    index names. -/
theorem mem_tile (t : Fin cfg0.N) (i : S8192x3072.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v3).slice (win0_2.rect t)).set ↔ _
  rw [View.set_slice_whole, Rect.mem_set_unit]
  exact Iff.rfl

/-- The tiles cover the output array: entry `(r, f)` is in the tile with block index `(r / 1024, f / 1024)`, which
    some point writes back. -/
theorem tiles_cover (i : S8192x3072.Idx) :
    ∃ t : Fin cfg0.N, (cfg0.win 2).flush t = true ∧ i ∈ ((cfg0.win 2).blk t).view.set := by
  have hi0 : (i 0).val < 8192 := (i 0).isLt
  have hi1 : (i 1).val < 3072 := (i 1).isLt
  obtain ⟨t, ht⟩ := blocks_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

section
variable (V : (c : Dev nD) → (b : Ref sig .tc) → Buf (Elt Ideal) ((c : Thread nD τ).loc b))

/-- So after the 24 write-backs the output array is the product of the two operand arrays. -/
theorem arr_eq (c : Dev nD) : (dat0 (F := Ideal) V c).arrAt 2 cfg0.N = prodAt (V c main_v0) (V c main_v2) :=
  (dat0 (F := Ideal) V c).arrAt_eq_of_cover 2 (prodAt (V c main_v0) (V c main_v2)) (fun t _ => tile_written V c t) tiles_cover

end

/-- Whatever the stage finds in its two operand arrays, its output array ends at their matrix product. -/
theorem arr_apply (V : (c : Dev nD) → (b : Ref sig .tc) → Buf (Elt Ideal) ((c : Thread nD τ).loc b)) (c : Dev nD) (r : Fin 8192) (f : Fin 3072) :
    (dat0 (F := Ideal) V c).arrAt 2 cfg0.N (ix2 r f) = mm (V c main_v0) (V c main_v2) r f :=
  congrFun (arr_eq V c) (ix2 r f)

end Cert.Attn.Reg0

end
-- ==== Proof.Pay1.lean ====
/-
  The attention tile's arithmetic read at an index: the value the body stores at row `n`, coordinate `d` of its
  output tile, from the four tiles it loads.

  The body's operations are read one stage at a time, each as a function of the loaded tiles at an index: the scores
  (the queries times the transposed keys, scaled, plus the bias), a row's maximum (a fold of `max` from `-∞`), the
  exponentials of the shifted scores, a row's sum, the exponentials times the values, and their quotient by the row's
  sum.  A matrix product into zero is the sum over the contracted coordinate; a change of float format is the identity
  on extended reals; the layout operations (a leading unit axis dropped or added, a transpose, a vector stood up as a
  column, a column repeated along the rows) each read one entry of their operand.
-/
import proofs.«420827_j28252294873693_3_alg».proof.Proof.Gen.KernelIdeal.Skeleton
import proofs.«420827_j28252294873693_3_alg».proof.Proof.Spec
import Idealize.ShloMosaic.PureOps.Ideal.Laws
import Idealize.ShloMosaic.Lib.Pipeline.Value
import Idealize.ShloMosaic.Lib.ValueLayout

set_option maxRecDepth 16384

noncomputable section

namespace Cert.Attn.Pay1

open Cert.KernelIdeal Cert.KernelIdeal.Gen Cert.Attn.Spec
open Idealize.ShloMosaic Idealize.ShloMosaic.TcCoe Idealize.ShloMosaic.ValueIdx Idealize.SL.Sem
open Idealize.ShloMosaic.Pipeline (Dat Cfg Window)

/-! ## Two column layouts: a vector stood up as a column, and a column repeated along the rows -/

/-- A vector `[a]` cast to the column `[a, 1]` reads, at `(i, u)`, the vector at `i`: the two row-major positions
    are `i` and `i * 1 + u` with `u = 0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products at an index

Each product's operand indices at result index `(r, c)` and contraction coordinate `k` are `(r, k)` and `(k, c)`:
the left operand's axis 0 and the right operand's axis 1 are the free axes, the other two are contracted. -/

theorem lhsQK_0 (i : S1024x2048.Idx) (q : dot_S1024x64_S64x2048_S1024x2048_1_0_0_1_n_n.contr.Idx) :
    (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl
theorem lhsQK_1 (i : S1024x2048.Idx) (q : dot_S1024x64_S64x2048_S1024x2048_1_0_0_1_n_n.contr.Idx) :
    (dot_S1024x64_S64x2048_S1024x2048_1_0_0_1_n_n.lhsIdx i q 1).val = (q ⟨0, by decide⟩).val :=
  dot_S1024x64_S64x2048_S1024x2048_1_0_0_1_n_n.lhsIdx_val_of_single rfl i q
theorem rhsQK_0 (i : S1024x2048.Idx) (q : dot_S1024x64_S64x2048_S1024x2048_1_0_0_1_n_n.contr.Idx) :
    (dot_S1024x64_S64x2048_S1024x2048_1_0_0_1_n_n.rhsIdx i q 0).val = (q ⟨0, by decide⟩).val :=
  dot_S1024x64_S64x2048_S1024x2048_1_0_0_1_n_n.rhsIdx_val_of_single rfl i q
theorem rhsQK_1 (i : S1024x2048.Idx) (q : dot_S1024x64_S64x2048_S1024x2048_1_0_0_1_n_n.contr.Idx) :
    (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl

/-- The product `[1024, 64] × [64, 2048]` into zero, at `(n, m)`: the sum over the 64 contracted coordinates. -/
theorem matmulQK_apply (a : FVec Ideal S1024x64 .bf16) (b : FVec Ideal S64x2048 .bf16) (n : Fin 1024) (m : Fin 2048) :
    matmul dot_S1024x64_S64x2048_S1024x2048_1_0_0_1_n_n none a b (constant (F := Ideal) S1024x2048 .f32 0x00000000#32) (ix2 n m)
      = ∑ e : Fin 64, a (ix2 n e) * b (ix2 e m) := by
  refine (Ideal.matmul_constant_zero_apply dot_S1024x64_S64x2048_S1024x2048_1_0_0_1_n_n none a b (ix2 n m)).trans ?_
  rw [← Equiv.sum_comp (ValueIdx.contrEquiv1 dot_S1024x64_S64x2048_S1024x2048_1_0_0_1_n_n 64 rfl rfl).symm]
  refine Finset.sum_congr rfl fun k _ => ?_
  have hk := ValueIdx.contrEquiv1_symm_val dot_S1024x64_S64x2048_S1024x2048_1_0_0_1_n_n 64 rfl rfl k
  have el : dot_S1024x64_S64x2048_S1024x2048_1_0_0_1_n_n.lhsIdx (ix2 n m) ((ValueIdx.contrEquiv1 dot_S1024x64_S64x2048_S1024x2048_1_0_0_1_n_n 64 rfl rfl).symm k) = ix2 n k := funext fun ax => Fin.ext (by
    match ax with
    | ⟨0, _⟩ => exact lhsQK_0 _ _
    | ⟨1, _⟩ => exact (lhsQK_1 _ _).trans hk)
  have er : dot_S1024x64_S64x2048_S1024x2048_1_0_0_1_n_n.rhsIdx (ix2 n m) ((ValueIdx.contrEquiv1 dot_S1024x64_S64x2048_S1024x2048_1_0_0_1_n_n 64 rfl rfl).symm k) = ix2 k m := funext fun ax => Fin.ext (by
    match ax with
    | ⟨0, _⟩ => exact (rhsQK_0 _ _).trans hk
    | ⟨1, _⟩ => exact rhsQK_1 _ _)
  rw [el, er]

theorem lhsPV_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhsPV_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhsPV_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhsPV_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The product `[1024, 2048] × [2048, 64]` into zero, at `(n, d)`: the sum over the 2048 contracted coordinates. -/
theorem matmulPV_apply (a : FVec Ideal S1024x2048 .bf16) (b : FVec Ideal S2048x64 .bf16) (n : Fin 1024) (d : Fin 64) :
    matmul dot_S1024x2048_S2048x64_S1024x64_1_0_0_1_n_n none a b (constant (F := Ideal) S1024x64 .f32 0x00000000#32) (ix2 n d)
      = ∑ m : Fin 2048, a (ix2 n m) * b (ix2 m d) := by
  refine (Ideal.matmul_constant_zero_apply dot_S1024x2048_S2048x64_S1024x64_1_0_0_1_n_n none a b (ix2 n d)).trans ?_
  rw [← Equiv.sum_comp (ValueIdx.contrEquiv1 dot_S1024x2048_S2048x64_S1024x64_1_0_0_1_n_n 2048 rfl rfl).symm]
  refine Finset.sum_congr rfl fun k _ => ?_
  have hk := ValueIdx.contrEquiv1_symm_val dot_S1024x2048_S2048x64_S1024x64_1_0_0_1_n_n 2048 rfl rfl k
  have el : dot_S1024x2048_S2048x64_S1024x64_1_0_0_1_n_n.lhsIdx (ix2 n d) ((ValueIdx.contrEquiv1 dot_S1024x2048_S2048x64_S1024x64_1_0_0_1_n_n 2048 rfl rfl).symm k) = ix2 n k := funext fun ax => Fin.ext (by
    match ax with
    | ⟨0, _⟩ => exact lhsPV_0 _ _
    | ⟨1, _⟩ => exact (lhsPV_1 _ _).trans hk)
  have er : dot_S1024x2048_S2048x64_S1024x64_1_0_0_1_n_n.rhsIdx (ix2 n d) ((ValueIdx.contrEquiv1 dot_S1024x2048_S2048x64_S1024x64_1_0_0_1_n_n 2048 rfl rfl).symm k) = ix2 k d := funext fun ax => Fin.ext (by
    match ax with
    | ⟨0, _⟩ => exact (rhsPV_0 _ _).trans hk
    | ⟨1, _⟩ => exact rhsPV_1 _ _)
  rw [el, er]

/-! ## The two reductions along a row -/

/-- The maximum over axis 1 of a `[1024, 2048]` tile, folded from the word of `-∞`, at row `n`: the fold of `max`
    over the row's 2048 entries. -/
theorem rowmax_apply (s : FVec Ideal S1024x2048 .f32) (n : Fin 1024) :
    multiReduction (F := Ideal) .maximumf [1] S1024 s 0xFF800000#32 reduces_S1024x2048_S1024 (.inl rfl) rfl (ix1 n)
      = (Finset.univ : Finset (Fin 2048)).fold max ninf (fun m => s (ix2 n m)) := by
  refine (Ideal.multiReduction_maximumf_single s 0xFF800000#32 reduces_S1024x2048_S1024 (.inl rfl) rfl (ix1 n)).trans ?_
  have e : (s ∘ reduces_S1024x2048_S1024.lift (ix1 n)) = fun m : Fin 2048 => s (ix2 n m) :=
    funext fun m => congrArg s (funext fun ax => Fin.ext (by
      match ax with
      | ⟨0, _⟩ => rfl
      | ⟨1, _⟩ => rfl))
  rw [e]
  rfl

/-- The sum over axis 1 of a `[1024, 2048]` tile at row `n`: the sum of the row's 2048 entries. -/
theorem rowsum_apply (s : FVec Ideal S1024x2048 .f32) (n : Fin 1024) :
    multiReduction (F := Ideal) .add [1] S1024 s 0x00000000#32 reduces_S1024x2048_S1024 (.inl rfl) rfl (ix1 n)
      = ∑ m : Fin 2048, s (ix2 n m) := by
  refine (Ideal.multiReduction_add_single s 0x00000000#32 reduces_S1024x2048_S1024 (.inl rfl) rfl (ix1 n)).trans ?_
  refine Finset.sum_congr rfl fun m _ => congrArg s (funext fun ax => Fin.ext ?_)
  match ax with
  | ⟨0, _⟩ => rfl
  | ⟨1, _⟩ => rfl

/-! ## The tile's stages, each a function of the four loaded tiles, read at an index -/

/-- An exponential at an index is the exponential of the element. -/
theorem exp_apply {s : Shape} {φ : FTy} (a : FVec Ideal s φ) (i : s.Idx) : exp a i = Ideal.exp (a i) := rfl

section Stages
variable (x0 : Vec Ideal S1x1024x64 .bf16) (x1 x2 : Vec Ideal S1x2048x64 .bf16) (x3 : Vec Ideal S1024x2048 .bf16)

/-- The tile of scores: the queries times the transposed keys, times the scale, plus the bias tile. -/
def scoreV : FVec Ideal S1024x2048 .f32 :=
  addf
    (mulf
      (matmul dot_S1024x64_S64x2048_S1024x2048_1_0_0_1_n_n none (shapeCast S1024x64 x0 shapeCasts_S1x1024x64_S1024x64 : FVec Ideal S1024x64 .bf16)
        (transpose S64x2048 [1, 0] (shapeCast S2048x64 x1 shapeCasts_S1x2048x64_S2048x64 : FVec Ideal S2048x64 .bf16) transposes_S2048x64_p1_0_S64x2048 : FVec Ideal S64x2048 .bf16)
        (constant S1024x2048 .f32 0x00000000#32))
      (broadcast S1024x2048 (Scalar.ofBits .f32 0x3E000000#32)))
    (extf .f32 (shapeCast S1024x2048 x3 shapeCasts_S1024x2048_S1024x2048 : FVec Ideal S1024x2048 .bf16) bitsLt_bf16_f32)

/-- At `(n, m)` it is the specification's score: the product at `(n, m)` sums over the 64 coordinates the query
    row `n` times the key row `m` (the transpose swaps the key tile's axes). -/
theorem scoreV_apply (n : Fin 1024) (m : Fin 2048) : scoreV x0 x1 x3 (ix2 n m) = scB x0 x1 x3 n m := by
  unfold scoreV scB
  refine (addf_apply _ _ _).trans ?_
  refine congrArg₂ (· + ·) ?_ ?_
  · refine (mulf_apply _ _ _).trans ?_
    refine congrArg₂ (· * ·) ?_ rfl
    refine (matmulQK_apply _ _ n m).trans ?_
    refine Finset.sum_congr rfl fun e _ => ?_
    refine congrArg₂ (· * ·) ?_ ?_
    · exact shapeCast_1ab_ab_apply x0 _ n e
    · refine (transpose_ix2_apply _ _ e m).trans ?_
      exact shapeCast_1ab_ab_apply x1 _ m e
  · refine (extf_apply (φ := .bf16) (ψ := .f32) _ bitsLt_bf16_f32 _).trans ?_
    exact congrFun (shapeCast_self x3 _) (ix2 n m)

/-- The rows' maxima. -/
def maxV : FVec Ideal S1024 .f32 :=
  multiReduction .maximumf [1] S1024 (scoreV x0 x1 x3) 0xFF800000#32 reduces_S1024x2048_S1024 (.inl rfl) rfl

/-- At `n` it is the fold of `max` from `-∞` over row `n` of the scores. -/
theorem maxV_apply (n : Fin 1024) : maxV x0 x1 x3 (ix1 n) = mxB x0 x1 x3 n := by
  unfold maxV mxB
  refine (rowmax_apply _ n).trans ?_
  exact congrArg (fun f => (Finset.univ : Finset (Fin 2048)).fold max ninf f) (funext fun m => scoreV_apply x0 x1 x3 n m)

/-- The exponentials of the scores shifted by their row's maximum (the maxima stood up as a column and repeated
    along the rows). -/
def expV : FVec Ideal S1024x2048 .f32 :=
  exp (subf (scoreV x0 x1 x3)
    (broadcastTo S1024x2048 (shapeCast S1024x1 (maxV x0 x1 x3) shapeCasts_S1024_S1024x1) broadcasts_S1024x1_S1024x2048))

/-- At `(n, m)`: the exponential of the score minus row `n`'s maximum. -/
theorem expV_apply (n : Fin 1024) (m : Fin 2048) : expV x0 x1 x3 (ix2 n m) = peB x0 x1 x3 n m := by
  unfold expV peB
  refine (exp_apply _ _).trans ?_
  refine congrArg Ideal.exp ?_
  refine (subf_apply _ _ _).trans ?_
  refine congrArg₂ (· - ·) (scoreV_apply x0 x1 x3 n m) ?_
  refine (broadcastTo_a1_ab_apply _ _ n m).trans ?_
  refine (shapeCast_a_a1_apply _ _ n 0).trans ?_
  exact maxV_apply x0 x1 x3 n

/-- The rows' sums of the exponentials. -/
def denV : FVec Ideal S1024 .f32 :=
  multiReduction .add [1] S1024 (expV x0 x1 x3) 0x00000000#32 reduces_S1024x2048_S1024 (.inl rfl) rfl

/-- At `n`: the sum of row `n`'s exponentials. -/
theorem denV_apply (n : Fin 1024) : denV x0 x1 x3 (ix1 n) = denB x0 x1 x3 n := by
  unfold denV denB
  refine (rowsum_apply _ n).trans ?_
  exact Finset.sum_congr rfl fun m _ => expV_apply x0 x1 x3 n m

/-- The exponentials times the values. -/
def numV : FVec Ideal S1024x64 .f32 :=
  matmul dot_S1024x2048_S2048x64_S1024x64_1_0_0_1_n_n none (truncf .bf16 (expV x0 x1 x3) bitsLt_bf16_f32)
    (shapeCast S2048x64 x2 shapeCasts_S1x2048x64_S2048x64 : FVec Ideal S2048x64 .bf16) (constant S1024x64 .f32 0x00000000#32)

/-- At `(n, d)`: the sum over the 2048 key rows of row `n`'s exponential times the value row's coordinate `d`. -/
theorem numV_apply (n : Fin 1024) (d : Fin 64) :
    numV x0 x1 x2 x3 (ix2 n d) = ∑ m : Fin 2048, peB x0 x1 x3 n m * x2 (ix3 (0 : Fin 1) m d) := by
  unfold numV
  refine (matmulPV_apply _ _ n d).trans ?_
  refine Finset.sum_congr rfl fun m _ => ?_
  refine congrArg₂ (· * ·) ?_ ?_
  · refine (truncf_apply (φ := .f32) (ψ := .bf16) _ bitsLt_bf16_f32 _).trans ?_
    exact expV_apply x0 x1 x3 n m
  · exact shapeCast_1ab_ab_apply x2 _ m d

/-- The stored tile: the products over the rows' sums (stood up as a column and repeated along the rows), with a
    leading unit axis. -/
def outV : FVec Ideal S1x1024x64 .bf16 :=
  shapeCast S1x1024x64
    (truncf .bf16
      (divf (numV x0 x1 x2 x3)
        (broadcastTo S1024x64 (shapeCast S1024x1 (denV x0 x1 x3) shapeCasts_S1024_S1024x1) broadcasts_S1024x1_S1024x64))
      bitsLt_bf16_f32)
    shapeCasts_S1024x64_S1x1024x64

/-- At `(0, n, d)`: the weighted sum of the values over the row's sum. -/
theorem outV_apply (n : Fin 1024) (d : Fin 64) :
    outV x0 x1 x2 x3 (ix3 (0 : Fin 1) n d) = attB x0 x1 x2 x3 n d := by
  unfold outV attB
  refine (shapeCast_ab_1ab_apply _ _ 0 n d).trans ?_
  refine (truncf_apply (φ := .f32) (ψ := .bf16) _ bitsLt_bf16_f32 _).trans ?_
  refine (divf_apply _ _ _).trans ?_
  refine congrArg₂ Ideal.div (numV_apply x0 x1 x2 x3 n d) ?_
  refine (broadcastTo_a1_ab_apply _ _ n d).trans ?_
  refine (shapeCast_a_a1_apply _ _ n 0).trans ?_
  exact denV_apply x0 x1 x3 n

/-- The body's stored value is that chain of stages, operation for operation. -/
theorem pay_eq_outV : k1_pay1 (F := Ideal) x0 x1 x2 x3 = outV x0 x1 x2 x3 := rfl

end Stages

/-- The stored value at `(0, n, d)` is the tile's attention `attB` of the loaded query, key, value and bias tiles. -/
theorem pay_apply (x0 : Vec Ideal S1x1024x64 .bf16) (x1 x2 : Vec Ideal S1x2048x64 .bf16) (x3 : Vec Ideal S1024x2048 .bf16)
    (n : Fin 1024) (d : Fin 64) :
    k1_pay1 (F := Ideal) x0 x1 x2 x3 (ix3 (0 : Fin 1) n d) = attB x0 x1 x2 x3 n d :=
  (congrFun (pay_eq_outV x0 x1 x2 x3) (ix3 (0 : Fin 1) n d)).trans (outV_apply x0 x1 x2 x3 n d)

end Cert.Attn.Pay1

end
-- ==== Proof.Reg1.lean ====
/-
  Stage 2 (attention, one head and 1024 query rows per tile): the array the stage leaves, index by index.
-/
import proofs.«420827_j28252294873693_3_alg».proof.Proof.Gen.KernelIdeal.Frame
import proofs.«420827_j28252294873693_3_alg».proof.Proof.Spec
import proofs.«420827_j28252294873693_3_alg».proof.Proof.Pay1
import Idealize.ShloMosaic.Lib.Pipeline.Value

set_option maxRecDepth 16384

noncomputable section

namespace Cert.Attn.Reg1

open Cert.KernelIdeal Cert.KernelIdeal.Gen Cert.Attn.Spec
open Idealize.ShloMosaic Idealize.ShloMosaic.TcCoe Idealize.ShloMosaic.ValueIdx Idealize.SL.Sem
open Idealize.ShloMosaic.Pipeline (Dat Cfg Window)

/-- The tile's attention at row n' is the whole arrays' attention at row n, once row n' of the query and bias tiles are
    rows n of the arrays and the key and value tiles are head bh's keys and values. -/
theorem attB_eq_att1 (q k v : (⟨3, ![64, 2048, 64]⟩ : Shape).Idx → EReal) (g : (⟨2, ![2048, 2048]⟩ : Shape).Idx → EReal)
    (qb : (⟨3, ![1, 1024, 64]⟩ : Shape).Idx → EReal) (kb vb : (⟨3, ![1, 2048, 64]⟩ : Shape).Idx → EReal)
    (gb : (⟨2, ![1024, 2048]⟩ : Shape).Idx → EReal)
    (bh : Fin 64) (n : Fin 2048) (n' : Fin 1024)
    (hq : ∀ e : Fin 64, qb (ix3 (0 : Fin 1) n' e) = q (ix3 bh n e))
    (hk : ∀ (m : Fin 2048) (e : Fin 64), kb (ix3 (0 : Fin 1) m e) = k (ix3 bh m e))
    (hv : ∀ (m : Fin 2048) (e : Fin 64), vb (ix3 (0 : Fin 1) m e) = v (ix3 bh m e))
    (hg : ∀ m : Fin 2048, gb (ix2 n' m) = g (ix2 n m)) (d : Fin 64) :
    attB qb kb vb gb n' d = att1 q k v g bh n d := by
  have hs : ∀ m : Fin 2048, scB qb kb gb n' m = sc1 q k g bh n m := fun m => by
    unfold scB sc1
    rw [hg m, Finset.sum_congr rfl fun e _ => by rw [hq e, hk m e]]
  have hm : mxB qb kb gb n' = mx1 q k g bh n := by
    unfold mxB mx1
    rw [show (fun m => scB qb kb gb n' m) = fun m => sc1 q k g bh n m from funext hs]
  have hp : ∀ m : Fin 2048, peB qb kb gb n' m = pe1 q k g bh n m := fun m => by
    unfold peB pe1
    rw [hs m, hm]
  have hd : denB qb kb gb n' = den1 q k g bh n := by
    unfold denB den1
    exact Finset.sum_congr rfl fun m _ => hp m
  unfold attB att1
  rw [hd, Finset.sum_congr rfl fun m _ => by rw [hp m, hv m d]]

section Region

variable (V : (c : Dev nD) → (b : Ref sig .tc) → Buf (Elt Ideal) ((c : Thread nD τ).loc b))

/-- Zero offsets on three axes, and on two. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- The index maps over the grid's 128 points: point t is query tile t / 64 of head t % 64; the key and value tiles are
    that head's whole key and value arrays, the bias tile the rows of that query tile. -/
theorem tile_offsets : ∀ t : Fin cfg1.N,
    win1_4.index t (0 : Fin 3) = t.val % 64 ∧ win1_4.index t (1 : Fin 3) = t.val / 64 ∧ win1_4.index t (2 : Fin 3) = 0
    ∧ win1_0.index t (0 : Fin 3) = t.val % 64 ∧ win1_0.index t (1 : Fin 3) = t.val / 64 ∧ win1_0.index t (2 : Fin 3) = 0
    ∧ win1_1.index t (0 : Fin 3) = t.val % 64 ∧ win1_1.index t (1 : Fin 3) = 0 ∧ win1_1.index t (2 : Fin 3) = 0
    ∧ win1_2.index t (0 : Fin 3) = t.val % 64 ∧ win1_2.index t (1 : Fin 3) = 0 ∧ win1_2.index t (2 : Fin 3) = 0
    ∧ win1_3.index t (0 : Fin 2) = t.val / 64 ∧ win1_3.index t (1 : Fin 2) = 0 :=
  (by decide +kernel : ∀ t : Fin grid1.N, _)

/-- An entry of the query tile at point t is the query array's entry at the tile's offsets plus the entry's own coordinates. -/
theorem q_read (c : Dev nD) (t : Fin cfg1.N) (y : S1x1024x64.Idx) (i : S64x2048x64.Idx)
    (h0 : (i 0).val = win1_0.index t (0 : Fin 3) * 1 + (y 0).val)
    (h1 : (i 1).val = win1_0.index t (1 : Fin 3) * 1024 + (y 1).val)
    (h2 : (i 2).val = win1_0.index t (2 : Fin 3) * 64 + (y 2).val) :
    (iblk1 V c 0 t : Vec Ideal S1x1024x64 .bf16) y = (V c main_v8 : S64x2048x64.Idx → EReal) i := by
  unfold iblk1
  rw [View.read_apply]
  show (V c main_v8 : S64x2048x64.Idx → EReal) _ = (V c main_v8 : S64x2048x64.Idx → EReal) i
  refine congrArg _ ?_
  funext a
  apply Fin.ext
  match a with
  | ⟨0, _⟩ => show win1_0.index t (0 : Fin 3) * 1 + 1 * (y 0).val = (i 0).val; omega
  | ⟨1, _⟩ => show win1_0.index t (1 : Fin 3) * 1024 + 1 * (y 1).val = (i 1).val; omega
  | ⟨2, _⟩ => show win1_0.index t (2 : Fin 3) * 64 + 1 * (y 2).val = (i 2).val; omega

/-- An entry of the key tile at point t, read in the key array. -/
theorem k_read (c : Dev nD) (t : Fin cfg1.N) (y : S1x2048x64.Idx) (i : S64x2048x64.Idx)
    (h0 : (i 0).val = win1_1.index t (0 : Fin 3) * 1 + (y 0).val)
    (h1 : (i 1).val = win1_1.index t (1 : Fin 3) * 2048 + (y 1).val)
    (h2 : (i 2).val = win1_1.index t (2 : Fin 3) * 64 + (y 2).val) :
    (iblk1 V c 1 t : Vec Ideal S1x2048x64 .bf16) y = (V c main_v11 : S64x2048x64.Idx → EReal) i := by
  unfold iblk1
  rw [View.read_apply]
  show (V c main_v11 : S64x2048x64.Idx → EReal) _ = (V c main_v11 : S64x2048x64.Idx → EReal) i
  refine congrArg _ ?_
  funext a
  apply Fin.ext
  match a with
  | ⟨0, _⟩ => show win1_1.index t (0 : Fin 3) * 1 + 1 * (y 0).val = (i 0).val; omega
  | ⟨1, _⟩ => show win1_1.index t (1 : Fin 3) * 2048 + 1 * (y 1).val = (i 1).val; omega
  | ⟨2, _⟩ => show win1_1.index t (2 : Fin 3) * 64 + 1 * (y 2).val = (i 2).val; omega

/-- An entry of the value tile at point t, read in the value array. -/
theorem v_read (c : Dev nD) (t : Fin cfg1.N) (y : S1x2048x64.Idx) (i : S64x2048x64.Idx)
    (h0 : (i 0).val = win1_2.index t (0 : Fin 3) * 1 + (y 0).val)
    (h1 : (i 1).val = win1_2.index t (1 : Fin 3) * 2048 + (y 1).val)
    (h2 : (i 2).val = win1_2.index t (2 : Fin 3) * 64 + (y 2).val) :
    (iblk1 V c 2 t : Vec Ideal S1x2048x64 .bf16) y = (V c main_v14 : S64x2048x64.Idx → EReal) i := by
  unfold iblk1
  rw [View.read_apply]
  show (V c main_v14 : S64x2048x64.Idx → EReal) _ = (V c main_v14 : S64x2048x64.Idx → EReal) i
  refine congrArg _ ?_
  funext a
  apply Fin.ext
  match a with
  | ⟨0, _⟩ => show win1_2.index t (0 : Fin 3) * 1 + 1 * (y 0).val = (i 0).val; omega
  | ⟨1, _⟩ => show win1_2.index t (1 : Fin 3) * 2048 + 1 * (y 1).val = (i 1).val; omega
  | ⟨2, _⟩ => show win1_2.index t (2 : Fin 3) * 64 + 1 * (y 2).val = (i 2).val; omega

/-- An entry of the bias tile at point t, read in the bias array. -/
theorem g_read (c : Dev nD) (t : Fin cfg1.N) (y : S1024x2048.Idx) (i : S2048x2048.Idx)
    (h0 : (i 0).val = win1_3.index t (0 : Fin 2) * 1024 + (y 0).val)
    (h1 : (i 1).val = win1_3.index t (1 : Fin 2) * 2048 + (y 1).val) :
    (iblk1 V c 3 t : Vec Ideal S1024x2048 .bf16) y = (V c main_v15 : S2048x2048.Idx → EReal) i := by
  unfold iblk1
  rw [View.read_apply]
  show (V c main_v15 : S2048x2048.Idx → EReal) _ = (V c main_v15 : S2048x2048.Idx → EReal) i
  refine congrArg _ ?_
  funext a
  apply Fin.ext
  match a with
  | ⟨0, _⟩ => show win1_3.index t (0 : Fin 2) * 1024 + 1 * (y 0).val = (i 0).val; omega
  | ⟨1, _⟩ => show win1_3.index t (1 : Fin 2) * 2048 + 1 * (y 1).val = (i 1).val; omega

/-- The attention of the whole arrays, as one array over (head, row, coordinate). -/
abbrev attArr (c : Dev nD) : S64x2048x64.Idx → EReal :=
  fun i => att1 (V c main_v8) (V c main_v11) (V c main_v14) (V c main_v15) (i 0) (i 1) (i 2)

/-- The attention of the four tiles at point t, at the tile's row n' and coordinate d, is the arrays' attention at the
    array position (head, row, coordinate) whose coordinates are the output tile's offsets plus (0, n', d). -/
theorem tile_eq (c : Dev nD) (t : Fin cfg1.N) (n' : Fin 1024) (d : Fin 64) (i : S64x2048x64.Idx)
    (h0 : (i 0).val = win1_4.index t (0 : Fin 3) * 1 + 0)
    (h1 : (i 1).val = win1_4.index t (1 : Fin 3) * 1024 + n'.val)
    (h2 : (i 2).val = win1_4.index t (2 : Fin 3) * 64 + d.val) :
    attB (iblk1 V c 0 t : Vec Ideal S1x1024x64 .bf16) (iblk1 V c 1 t : Vec Ideal S1x2048x64 .bf16)
      (iblk1 V c 2 t : Vec Ideal S1x2048x64 .bf16) (iblk1 V c 3 t : Vec Ideal S1024x2048 .bf16) n' d = attArr V c i := by
  obtain ⟨e40, e41, e42, e00, e01, e02, e10, e11, e12, e20, e21, e22, e30, e31⟩ := tile_offsets t
  obtain ⟨bh, n, d', rfl⟩ : ∃ (bh : Fin 64) (n : Fin 2048) (d' : Fin 64), i = ix3 bh n d' := ⟨i 0, i 1, i 2, eq_ix3 i⟩
  have hb : bh.val = t.val % 64 := by have : bh.val = win1_4.index t (0 : Fin 3) * 1 + 0 := h0; omega
  have hn : n.val = t.val / 64 * 1024 + n'.val := by have : n.val = win1_4.index t (1 : Fin 3) * 1024 + n'.val := h1; omega
  obtain rfl : d' = d := Fin.ext (by have : d'.val = win1_4.index t (2 : Fin 3) * 64 + d.val := h2; omega)
  show _ = att1 (V c main_v8) (V c main_v11) (V c main_v14) (V c main_v15) bh n d'
  refine attB_eq_att1 (V c main_v8) (V c main_v11) (V c main_v14) (V c main_v15)
    (iblk1 V c 0 t : Vec Ideal S1x1024x64 .bf16) (iblk1 V c 1 t : Vec Ideal S1x2048x64 .bf16)
    (iblk1 V c 2 t : Vec Ideal S1x2048x64 .bf16) (iblk1 V c 3 t : Vec Ideal S1024x2048 .bf16) bh n n' ?_ ?_ ?_ ?_ d'
  · intro e
    refine q_read V c t (ix3 (0 : Fin 1) n' e) (ix3 bh n e) ?_ ?_ ?_
    · show bh.val = win1_0.index t (0 : Fin 3) * 1 + (0 : Fin 1).val; rw [e00, hb]; simp
    · show n.val = win1_0.index t (1 : Fin 3) * 1024 + n'.val; rw [e01, hn]
    · show e.val = win1_0.index t (2 : Fin 3) * 64 + e.val; rw [e02]; omega
  · intro m e
    refine k_read V c t (ix3 (0 : Fin 1) m e) (ix3 bh m e) ?_ ?_ ?_
    · show bh.val = win1_1.index t (0 : Fin 3) * 1 + (0 : Fin 1).val; rw [e10, hb]; simp
    · show m.val = win1_1.index t (1 : Fin 3) * 2048 + m.val; rw [e11]; omega
    · show e.val = win1_1.index t (2 : Fin 3) * 64 + e.val; rw [e12]; omega
  · intro m e
    refine v_read V c t (ix3 (0 : Fin 1) m e) (ix3 bh m e) ?_ ?_ ?_
    · show bh.val = win1_2.index t (0 : Fin 3) * 1 + (0 : Fin 1).val; rw [e20, hb]; simp
    · show m.val = win1_2.index t (1 : Fin 3) * 2048 + m.val; rw [e21]; omega
    · show e.val = win1_2.index t (2 : Fin 3) * 64 + e.val; rw [e22]; omega
  · intro m
    refine g_read V c t (ix2 n' m) (ix2 n m) ?_ ?_
    · show n.val = win1_3.index t (0 : Fin 2) * 1024 + n'.val; rw [e30, hn]
    · show m.val = win1_3.index t (1 : Fin 2) * 2048 + m.val; rw [e31]; omega

/-- What point t writes back is its tile of the arrays' attention: the body stores the tile's attention of the four
    tiles it loaded, and that is the arrays' attention at the tile's positions. -/
theorem tile_written (c : Dev nD) (t : Fin cfg1.N) :
    (dat1 (F := Ideal) V c).flushed 4 t = ((cfg1.win 4).blk t).view.read (Elt Ideal) (attArr V c) := by
  show (cfg1.win 4).cut (grid1.coords t) ((dat1 (F := Ideal) V c).after 4 t) = _
  rw [after1_4]
  unfold out1_4
  rw [View.canon_unit_zero zeros3]
  simp only [View.ld_unit_zero (S := S1x1024x64) zeros3, View.ld_unit_zero (S := S1x2048x64) zeros3, View.ld_unit_zero (S := S1024x2048) zeros2]
  funext j
  obtain ⟨z, n', d, rfl⟩ : ∃ (z : Fin 1) (n' : Fin 1024) (d : Fin 64), j = ix3 z n' d := ⟨j 0, j 1, j 2, eq_ix3 j⟩
  obtain rfl : z = 0 := Subsingleton.elim _ _
  refine (Cert.Attn.Pay1.pay_apply (iblk1 V c 0 t) (iblk1 V c 1 t) (iblk1 V c 2 t) (iblk1 V c 3 t) n' d).trans ?_
  rw [View.read_apply]
  refine tile_eq V c t n' d _ ?_ ?_ ?_
  · show win1_4.index t (0 : Fin 3) * 1 + 1 * (0 : Fin 1).val = win1_4.index t (0 : Fin 3) * 1 + 0; simp
  · show win1_4.index t (1 : Fin 3) * 1024 + 1 * n'.val = win1_4.index t (1 : Fin 3) * 1024 + n'.val; omega
  · show win1_4.index t (2 : Fin 3) * 64 + 1 * d.val = win1_4.index t (2 : Fin 3) * 64 + d.val; omega

/-- A position of the output array is in point t's tile iff each coordinate is within the tile's range on its axis. -/
theorem mem_tile (t : Fin cfg1.N) (i : S64x2048x64.Idx) :
    i ∈ ((cfg1.win 4).blk t).view.set ↔ ∀ a : Fin 3, win1_4.index t a * S1x1024x64.size a ≤ (i a).val ∧ (i a).val < win1_4.index t a * S1x1024x64.size a + S1x1024x64.size a := by
  show i ∈ ((View.whole main_v16).slice (win1_4.rect t)).set ↔ _
  rw [View.set_slice_whole, Rect.mem_set_unit]
  exact Iff.rfl

/-- Every position (head, row, coordinate) of the output array is in the tile of the point (row / 1024, head). -/
theorem tiles_cover (i : S64x2048x64.Idx) : ∃ t : Fin cfg1.N, (cfg1.win 4).flush t = true ∧ i ∈ ((cfg1.win 4).blk t).view.set := by
  have hN : cfg1.N = 128 := N_1
  have hi0 : (i 0).val < 64 := (i 0).isLt
  have hi1 : (i 1).val < 2048 := (i 1).isLt
  have hi2 : (i 2).val < 64 := (i 2).isLt
  let t : Fin cfg1.N := ⟨(i 1).val / 1024 * 64 + (i 0).val, by omega⟩
  have ht : t.val = (i 1).val / 1024 * 64 + (i 0).val := rfl
  obtain ⟨e40, e41, e42, -⟩ := tile_offsets t
  refine ⟨t, flush1_4 t, ?_⟩
  rw [mem_tile]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 64 ≤ (i 2).val ∧ (i 2).val < win1_4.index t (2 : Fin 3) * 64 + 64; omega

/-- So the output array ends at the arrays' attention. -/
theorem arr_eq_att (c : Dev nD) : (dat1 (F := Ideal) V c).arrAt 4 cfg1.N = attArr V c :=
  (dat1 (F := Ideal) V c).arrAt_eq_of_cover 4 (attArr V c) (fun t _ => tile_written V c t) tiles_cover

end Region

/-- Whatever the stage finds in its query, key, value and bias arrays, its output array ends at their attention. -/
theorem arr_apply (V : (c : Dev nD) → (b : Ref sig .tc) → Buf (Elt Ideal) ((c : Thread nD τ).loc b)) (c : Dev nD) (bh : Fin 64) (n : Fin 2048) (d : Fin 64) :
    (dat1 (F := Ideal) V c).arrAt 4 cfg1.N (ix3 bh n d) = att1 (V c main_v8) (V c main_v11) (V c main_v14) (V c main_v15) bh n d := by
  rw [arr_eq_att V c]

end Cert.Attn.Reg1

end
-- ==== Proof.Reg2.lean ====
/-
  Stage 3 (the output projection plus its bias): the array the last tiled matrix product leaves, index by index.

  The stage walks the 8192 rows in eight tiles of 1024.  At a tile it multiplies the tile's 1024 × 1024 block of the
  left array by the whole 1024 × 1024 right array, accumulating from zero, and adds the 1 × 1024 row vector to every
  row.  An entry (p, q) of what the tile writes is therefore the sum over k of left(tile row p, k) · right(k, q), plus
  the row vector's entry q; the tile covering row r of the array is tile r / 1024, and the eight tiles cover all rows.
-/
import proofs.«420827_j28252294873693_3_alg».proof.Proof.Gen.KernelIdeal.Frame
import proofs.«420827_j28252294873693_3_alg».proof.Proof.Spec
import Idealize.ShloMosaic.PureOps.Ideal.Laws
import Idealize.ShloMosaic.Lib.Pipeline.Value
import Idealize.ShloMosaic.Lib.ValueLayout

set_option maxRecDepth 16384

noncomputable section

namespace Cert.Attn.Reg2

open Cert.KernelIdeal Cert.KernelIdeal.Gen Cert.Attn.Spec
open Idealize.ShloMosaic Idealize.ShloMosaic.TcCoe Idealize.ShloMosaic.ValueIdx Idealize.SL.Sem
open Idealize.ShloMosaic.Pipeline (Dat Cfg Window)

/-! ## One tile's product at an entry -/

/-- The left factor of the product's term is read at the entry's own row. -/
theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The left factor's column is the summation position. -/
theorem lhs_col (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right factor's row is the summation position. -/
theorem rhs_row (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- The right factor of the product's term is read at the entry's own column. -/
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A 1024 × 1024 product accumulated from zero, at entry (p, q): the sum over k of a(p, k) · b(k, q). -/
theorem prod_apply (a b : FVec Ideal S1024x1024 .bf16) (p q : Fin 1024) :
    matmul dot_S1024x1024_S1024x1024_S1024x1024_1_0_0_1_n_n none a b (constant (F := Ideal) S1024x1024 .f32 0x00000000#32) (ix2 p q)
      = ∑ k : Fin 1024, a (ix2 p k) * b (ix2 k q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun ax => Fin.ext (by
    match ax with
    | ⟨0, _⟩ => exact lhs_row _ _
    | ⟨1, _⟩ => exact (lhs_col _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun ax => Fin.ext (by
    match ax with
    | ⟨0, _⟩ => exact (rhs_row _ _).trans hk
    | ⟨1, _⟩ => exact rhs_col _ _)
  rw [el, er]

/-- What a tile computes from its three blocks, at entry (p, q): the product's entry plus the row vector's entry q. -/
theorem tile_apply (x0 x1 : Vec Ideal S1024x1024 .bf16) (x2 : Vec Ideal S1x1024 .f32) (p q : Fin 1024) :
    k2_pay1 (F := Ideal) x0 x1 x2 (ix2 p q) = (∑ k : Fin 1024, x0 (ix2 p k) * x1 (ix2 k q)) + x2 (ix2 (0 : Fin 1) q) := by
  unfold k2_pay1
  simp only [shapeCast_self]
  rw [addf_apply, broadcastTo_1b_ab_apply, prod_apply]

/-! ## From the tiles to the array -/

theorem hz : (![0, 0] : Fin 2 → Nat) = fun _ => 0 := funext fun a => by fin_cases a <;> rfl

/-- Where tile `t`'s blocks sit: the left array's and the output's block starts at block-row `t`; the right array
    and the row vector have one block each, the same for every tile. -/
theorem tile_origin : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The array the stage should leave: the product of the left and right arrays plus the row vector, at every entry. -/
abbrev whole (A : S8192x1024.Idx → EReal) (B : S1024x1024.Idx → EReal) (bb : S1x1024.Idx → EReal) :
    S8192x1024.Idx → EReal := fun i => mmb A B bb (i 0) (i 1)

section Tiles
variable (V : (c : Dev nD) → (b : Ref sig .tc) → Buf (Elt Ideal) ((c : Thread nD τ).loc b))

/-- Tile `t`'s block of the left array is its rows `1024 t … 1024 t + 1023`. -/
theorem left_read (c : Dev nD) (t : Fin cfg2.N) (p k : Fin 1024) (r : Fin 8192) (hr : r.val = t.val * 1024 + p.val) :
    (iblk2 (F := Ideal) V c 0 t : Vec Ideal S1024x1024 .bf16) (ix2 p k) = (V c main_v19 : S8192x1024.Idx → EReal) (ix2 r k) := by
  obtain ⟨e00, e01, -⟩ := tile_origin t
  unfold iblk2
  rw [View.read_apply]
  show V c main_v19 _ = V c main_v19 _
  congr 1
  funext a
  apply Fin.ext
  match a with
  | ⟨0, _⟩ => show win2_0.index t (0 : Fin 2) * 1024 + 1 * p.val = r.val; omega
  | ⟨1, _⟩ => show win2_0.index t (1 : Fin 2) * 1024 + 1 * k.val = k.val; omega

/-- Every tile's block of the right array is the whole array. -/
theorem right_read (c : Dev nD) (t : Fin cfg2.N) (k q : Fin 1024) :
    (iblk2 (F := Ideal) V c 1 t : Vec Ideal S1024x1024 .bf16) (ix2 k q) = (V c main_v21 : S1024x1024.Idx → EReal) (ix2 k q) := by
  obtain ⟨-, -, e10, e11, -⟩ := tile_origin t
  unfold iblk2
  rw [View.read_apply]
  show V c main_v21 _ = V c main_v21 _
  congr 1
  funext a
  apply Fin.ext
  match a with
  | ⟨0, _⟩ => show win2_1.index t (0 : Fin 2) * 1024 + 1 * k.val = k.val; omega
  | ⟨1, _⟩ => show win2_1.index t (1 : Fin 2) * 1024 + 1 * q.val = q.val; omega

/-- Every tile's block of the row vector is the whole vector. -/
theorem vec_read (c : Dev nD) (t : Fin cfg2.N) (q : Fin 1024) :
    (iblk2 (F := Ideal) V c 2 t : Vec Ideal S1x1024 .f32) (ix2 (0 : Fin 1) q) = (V c main_v22 : S1x1024.Idx → EReal) (ix2 (0 : Fin 1) q) := by
  obtain ⟨-, -, -, -, e20, e21, -⟩ := tile_origin t
  unfold iblk2
  rw [View.read_apply]
  show V c main_v22 _ = V c main_v22 _
  congr 1
  funext a
  apply Fin.ext
  match a with
  | ⟨0, _⟩ => show win2_2.index t (0 : Fin 2) * 1 + 1 * 0 = 0; omega
  | ⟨1, _⟩ => show win2_2.index t (1 : Fin 2) * 1024 + 1 * q.val = q.val; omega

/-- Entry (p, q) of tile `t`'s block of the wanted array is its entry (1024 t + p, q). -/
theorem whole_read (A : S8192x1024.Idx → EReal) (B : S1024x1024.Idx → EReal) (bb : S1x1024.Idx → EReal)
    (t : Fin cfg2.N) (p q : Fin 1024) (r : Fin 8192) (hr : r.val = t.val * 1024 + p.val) :
    ((cfg2.win 3).blk t).view.read (Elt Ideal) (whole A B bb) (ix2 p q) = mmb A B bb r q := by
  obtain ⟨-, -, -, -, -, -, e30, e31⟩ := tile_origin t
  show mmb A B bb ((((cfg2.win 3).blk t).view.emb (ix2 p q)) 0) ((((cfg2.win 3).blk t).view.emb (ix2 p q)) 1) = mmb A B bb r q
  refine congrArg₂ (mmb A B bb) (Fin.ext ?_) (Fin.ext ?_)
  · show win2_3.index t (0 : Fin 2) * 1024 + 1 * p.val = r.val; omega
  · show win2_3.index t (1 : Fin 2) * 1024 + 1 * q.val = q.val; omega

/-- WHAT TILE `t` WRITES BACK is its block of the wanted array: the product of the tile's rows of the left array with the
    right array, plus the row vector. -/
theorem tile_written (c : Dev nD) (t : Fin cfg2.N) :
    (dat2 (F := Ideal) V c).flushed 3 t
      = ((cfg2.win 3).blk t).view.read (Elt Ideal) (whole (V c main_v19) (V c main_v21) (V c main_v22)) := by
  show (cfg2.win 3).cut (grid2.coords t) ((dat2 (F := Ideal) V c).after 3 t) = _
  rw [after2_3]
  unfold out2_3
  rw [View.canon_unit_zero hz]
  simp only [View.ld_unit_zero (S := S1024x1024) hz, View.ld_unit_zero (S := S1x1024) hz]
  have ht : t.val < 8 := by have := t.isLt; have hN : cfg2.N = 8 := N_2; omega
  funext j
  obtain ⟨p, q, rfl⟩ : ∃ (p : Fin 1024) (q : Fin 1024), j = ix2 p q := ⟨j 0, j 1, eq_ix2 j⟩
  refine (tile_apply (iblk2 V c 0 t) (iblk2 V c 1 t) (iblk2 V c 2 t) p q).trans ?_
  refine Eq.trans ?_ (whole_read (V c main_v19) (V c main_v21) (V c main_v22) t p q ⟨t.val * 1024 + p.val, by omega⟩ rfl).symm
  unfold mmb
  exact congrArg₂ (· + ·)
    (Finset.sum_congr rfl fun k _ => congrArg₂ (· * ·) (left_read V c t p k _ rfl) (right_read V c t k q))
    (vec_read V c t q)

/-- An entry of the array is in tile `t`'s block iff each coordinate is in the block's range on its axis. -/
theorem mem_tile (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v23).slice (win2_3.rect t)).set ↔ _
  rw [View.set_slice_whole, Rect.mem_set_unit]
  exact Iff.rfl

/-- Every row of the array is in some tile: row `r` in tile `r / 1024`. -/
theorem covered (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 8 := N_2
  obtain ⟨t, ht⟩ : ∃ t : Fin cfg2.N, t.val = (i 0).val / 1024 := ⟨⟨(i 0).val / 1024, by omega⟩, rfl⟩
  obtain ⟨-, -, -, -, -, -, e30, e31⟩ := tile_origin t
  refine ⟨t, flush2_3 t, ?_⟩
  rw [mem_tile]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The array after the eight tiles: the product plus the row vector, everywhere. -/
theorem arr_eq (c : Dev nD) :
    (dat2 (F := Ideal) V c).arrAt 3 cfg2.N = whole (V c main_v19) (V c main_v21) (V c main_v22) :=
  (dat2 (F := Ideal) V c).arrAt_eq_of_cover 3 (whole (V c main_v19) (V c main_v21) (V c main_v22))
    (fun t _ => tile_written V c t) covered

end Tiles

/-- Whatever the stage finds in its three operand arrays, its output array ends at their matrix product plus the row vector. -/
theorem arr_apply (V : (c : Dev nD) → (b : Ref sig .tc) → Buf (Elt Ideal) ((c : Thread nD τ).loc b)) (c : Dev nD) (r : Fin 8192) (o : Fin 1024) :
    (dat2 (F := Ideal) V c).arrAt 3 cfg2.N (ix2 r o) = mmb (V c main_v19) (V c main_v21) (V c main_v22) r o :=
  congrFun (arr_eq V c) (ix2 r o)

end Cert.Attn.Reg2

end
-- ==== Proof.HostRead1.lean ====
/-
  The operand arrays of stages 1 and 2 as the host operations before them leave them: each read at an index from the
  argument arrays, or from the array stage 1 left.
-/
import proofs.«420827_j28252294873693_3_alg».proof.Proof.Gen.KernelIdeal.Frame
import proofs.«420827_j28252294873693_3_alg».proof.Proof.Spec
import Idealize.ShloMosaic.Lib.Pipeline.Value
import Idealize.ShloMosaic.Lib.StableHlo.Run

set_option maxRecDepth 16384

noncomputable section

namespace Cert.Attn.HostRead1

open Cert.KernelIdeal Cert.KernelIdeal.Gen Cert.Attn.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

/-! ## Each buffer as the term the operations before its stage compute from their source -/

/-- Stage 1's left operand is the reshape of the input. -/
theorem v0_term :
    (V1 m ρ c main_v0 : FVec Ideal S8192x1024 .f32)
      = shapeCast S8192x1024 (m ((c : Thread nD τ).loc main_arg0) : FVec Ideal S4x2048x1024 .f32)
          shapeCasts_S4x2048x1024_S8192x1024 := by
  show StableHlo.after hostOps0 _ (Proc.devRef .tc main_v0) = _
  after_results
  rfl

/-- Stage 1's right operand is the transposed projection matrix in the narrower float format. -/
theorem v2_term :
    (V1 m ρ c main_v2 : FVec Ideal S1024x3072 .bf16)
      = truncf (F := Ideal) .bf16
          (transpose S1024x3072 [1, 0] (m ((c : Thread nD τ).loc main_arg1) : FVec Ideal S3072x1024 .f32)
            transposes_S3072x1024_S1024x3072_1_0) bitsLt_bf16_f32 := by
  show StableHlo.after hostOps0 _ (Proc.devRef .tc main_v2) = _
  after_results

/-- Stage 2's bias is the bias argument in the narrower float format: no operation and no stage before it writes the
    argument, so it is still what was launched. -/
theorem v15_term :
    (V3 m ρ c main_v15 : FVec Ideal S2048x2048 .bf16)
      = truncf (F := Ideal) .bf16 (m ((c : Thread nD τ).loc main_arg4) : FVec Ideal S2048x2048 .f32) bitsLt_bf16_f32 := by
  show StableHlo.after hostOps1 _ (Proc.devRef .tc main_v15) = _
  after_results
  rw [W2_of_ne m ρ c main_arg4 (by decide)]
  show truncf .bf16 (StableHlo.after hostOps0 _ (Proc.devRef .tc main_arg4)) _ = _
  after_results

/-- Stage 2's queries: the five layout operations applied to the array stage 1 left, cutting part 0. -/
theorem v8_term :
    (V3 m ρ c main_v8 : FVec Ideal S64x2048x64 .bf16)
      = shapeCast S64x2048x64 (shapeCast S4x16x2048x64 (extractStridedSlice S1x4x16x2048x64 ![0, 0, 0, 0, 0]
          (transpose S3x4x16x2048x64 [2, 0, 3, 1, 4]
            (shapeCast S4x2048x3x16x64 ((dat0 (V1 m ρ) c).arrAt 2 cfg0.N : FVec Ideal S8192x3072 .bf16)
              shapeCasts_S8192x3072_S4x2048x3x16x64)
            transposes_S4x2048x3x16x64_S3x4x16x2048x64_2_0_3_1_4) slices_S3x4x16x2048x64_S1x4x16x2048x64_0_0_0_0_0)
          shapeCasts_S1x4x16x2048x64_S4x16x2048x64) shapeCasts_S4x16x2048x64_S64x2048x64 := by
  have e3 : W2 m ρ c (Proc.devRef .tc main_v3) = (dat0 (V1 m ρ) c).arrAt 2 cfg0.N := W2_arr m ρ c 2
  show StableHlo.after hostOps1 _ (Proc.devRef .tc main_v8) = _
  after_results
  rw [e3]
  rfl

/-- Stage 2's keys: the five layout operations applied to the array stage 1 left, cutting part 1. -/
theorem v11_term :
    (V3 m ρ c main_v11 : FVec Ideal S64x2048x64 .bf16)
      = shapeCast S64x2048x64 (shapeCast S4x16x2048x64 (extractStridedSlice S1x4x16x2048x64 ![1, 0, 0, 0, 0]
          (transpose S3x4x16x2048x64 [2, 0, 3, 1, 4]
            (shapeCast S4x2048x3x16x64 ((dat0 (V1 m ρ) c).arrAt 2 cfg0.N : FVec Ideal S8192x3072 .bf16)
              shapeCasts_S8192x3072_S4x2048x3x16x64)
            transposes_S4x2048x3x16x64_S3x4x16x2048x64_2_0_3_1_4) slices_S3x4x16x2048x64_S1x4x16x2048x64_1_0_0_0_0)
          shapeCasts_S1x4x16x2048x64_S4x16x2048x64) shapeCasts_S4x16x2048x64_S64x2048x64 := by
  have e3 : W2 m ρ c (Proc.devRef .tc main_v3) = (dat0 (V1 m ρ) c).arrAt 2 cfg0.N := W2_arr m ρ c 2
  show StableHlo.after hostOps1 _ (Proc.devRef .tc main_v11) = _
  after_results
  rw [e3]
  rfl

/-- Stage 2's values: the five layout operations applied to the array stage 1 left, cutting part 2. -/
theorem v14_term :
    (V3 m ρ c main_v14 : FVec Ideal S64x2048x64 .bf16)
      = shapeCast S64x2048x64 (shapeCast S4x16x2048x64 (extractStridedSlice S1x4x16x2048x64 ![2, 0, 0, 0, 0]
          (transpose S3x4x16x2048x64 [2, 0, 3, 1, 4]
            (shapeCast S4x2048x3x16x64 ((dat0 (V1 m ρ) c).arrAt 2 cfg0.N : FVec Ideal S8192x3072 .bf16)
              shapeCasts_S8192x3072_S4x2048x3x16x64)
            transposes_S4x2048x3x16x64_S3x4x16x2048x64_2_0_3_1_4) slices_S3x4x16x2048x64_S1x4x16x2048x64_2_0_0_0_0)
          shapeCasts_S1x4x16x2048x64_S4x16x2048x64) shapeCasts_S4x16x2048x64_S64x2048x64 := by
  have e3 : W2 m ρ c (Proc.devRef .tc main_v3) = (dat0 (V1 m ρ) c).arrAt 2 cfg0.N := W2_arr m ρ c 2
  show StableHlo.after hostOps1 _ (Proc.devRef .tc main_v14) = _
  after_results
  rw [e3]
  rfl

/-! ## The layout chain at an index -/

/-- The five layout operations between stage 1's output and one of stage 2's operands, read at an index: the 3072
    projected features are split as part × head × coordinate, the axes reordered to part, batch, head, row, coordinate,
    part `s` cut out, its unit axis dropped and batch × head flattened.  Row-major positions agree at each reshape:
    `(b * 2048 + n) * 3072 + (s * 1024 + h * 64 + e) = (((b * 2048 + n) * 3 + s) * 16 + h) * 64 + e` and
    `((b * 16 + h) * 2048 + n) * 64 + e` on both sides of the last one. -/
theorem chain_apply {α : Type} (y : S8192x3072.Idx → α) (s : Fin 3) (o : Nat) (ho : o = s.val)
    (hs : S3x4x16x2048x64.Slices ![o, 0, 0, 0, 0] S1x4x16x2048x64)
    (b : Fin 4) (h : Fin 16) (n : Fin 2048) (e : Fin 64) :
    shapeCast S64x2048x64 (shapeCast S4x16x2048x64 (extractStridedSlice S1x4x16x2048x64 ![o, 0, 0, 0, 0]
        (transpose S3x4x16x2048x64 [2, 0, 3, 1, 4] (shapeCast S4x2048x3x16x64 y shapeCasts_S8192x3072_S4x2048x3x16x64)
          transposes_S4x2048x3x16x64_S3x4x16x2048x64_2_0_3_1_4) hs)
        shapeCasts_S1x4x16x2048x64_S4x16x2048x64) shapeCasts_S4x16x2048x64_S64x2048x64 (ix3 (bhd b h) n e)
      = y (ix2 (row b n) (feat s h e)) := by
  subst ho
  have hb := b.isLt; have hh := h.isLt; have hn := n.isLt; have he := e.isLt; have hs' := s.isLt
  refine (shapeCast_apply _ shapeCasts_S4x16x2048x64_S64x2048x64 (ix3 (bhd b h) n e) (ix4 b h n e) ?_).trans ?_
  · rw [Shape.rowMajor_val_four, Shape.rowMajor_val_three]
    show ((b.val * 16 + h.val) * 2048 + n.val) * 64 + e.val = ((b.val * 16 + h.val) * 2048 + n.val) * 64 + e.val
    rfl
  refine (shapeCast_apply _ shapeCasts_S1x4x16x2048x64_S4x16x2048x64 (ix4 b h n e) (ix5 (0 : Fin 1) b h n e) ?_).trans ?_
  · rw [Shape.rowMajor_val_five, Shape.rowMajor_val_four]
    show (((0 * 4 + b.val) * 16 + h.val) * 2048 + n.val) * 64 + e.val = ((b.val * 16 + h.val) * 2048 + n.val) * 64 + e.val
    omega
  refine (extractStridedSlice_apply ![s.val, 0, 0, 0, 0] _ hs (ix5 (0 : Fin 1) b h n e) (ix5 s b h n e) (fun a => match a with
    | ⟨0, _⟩ => by show s.val = s.val + 0; omega
    | ⟨1, _⟩ => by show b.val = 0 + b.val; omega
    | ⟨2, _⟩ => by show h.val = 0 + h.val; omega
    | ⟨3, _⟩ => by show n.val = 0 + n.val; omega
    | ⟨4, _⟩ => by show e.val = 0 + e.val; omega)).trans ?_
  refine (transpose_apply [2, 0, 3, 1, 4] _ transposes_S4x2048x3x16x64_S3x4x16x2048x64_2_0_3_1_4 (ix5 s b h n e) (ix5 b n s h e) (fun a => match a with
    | ⟨0, _⟩ => rfl
    | ⟨1, _⟩ => rfl
    | ⟨2, _⟩ => rfl
    | ⟨3, _⟩ => rfl
    | ⟨4, _⟩ => rfl)).trans ?_
  refine shapeCast_apply y shapeCasts_S8192x3072_S4x2048x3x16x64 (ix5 b n s h e) (ix2 (row b n) (feat s h e)) ?_
  rw [Shape.rowMajor_val_two, Shape.rowMajor_val_five]
  show (b.val * 2048 + n.val) * 3072 + (s.val * 1024 + h.val * 64 + e.val) = (((b.val * 2048 + n.val) * 3 + s.val) * 16 + h.val) * 64 + e.val
  omega

/-! ## The six reads -/

/-- Stage 1's left operand is the input with batch and sequence flattened. -/
theorem read_v0 (b : Fin 4) (n : Fin 2048) (k : Fin 1024) :
    V1 m ρ c main_v0 (ix2 (row b n) k) = m ((c : Thread nD τ).loc main_arg0) (ix3 b n k) := by
  refine (congrFun (v0_term m ρ c) (ix2 (row b n) k)).trans ?_
  -- row-major position of (b, n, k) in [4, 2048, 1024] is that of (b * 2048 + n, k) in [8192, 1024]
  refine shapeCast_apply _ shapeCasts_S4x2048x1024_S8192x1024 (ix2 (row b n) k) (ix3 b n k) ?_
  rw [Shape.rowMajor_val_three, Shape.rowMajor_val_two]
  show (b.val * 2048 + n.val) * 1024 + k.val = (b.val * 2048 + n.val) * 1024 + k.val
  rfl
/-- Stage 1's right operand is the projection matrix transposed. -/
theorem read_v2 (k : Fin 1024) (f : Fin 3072) :
    V1 m ρ c main_v2 (ix2 k f) = m ((c : Thread nD τ).loc main_arg1) (ix2 f k) := by
  refine (congrFun (v2_term m ρ c) (ix2 k f)).trans ?_
  refine (truncf_apply _ bitsLt_bf16_f32 (ix2 k f)).trans ?_
  exact transpose_apply [1, 0] _ transposes_S3072x1024_S1024x3072_1_0 (ix2 k f) (ix2 f k) (fun a => match a with
    | ⟨0, _⟩ => rfl
    | ⟨1, _⟩ => rfl)
/-- Stage 2's queries: part 0 of stage 1's output, head by head. -/
theorem read_v8 (b : Fin 4) (h : Fin 16) (n : Fin 2048) (e : Fin 64) :
    V3 m ρ c main_v8 (ix3 (bhd b h) n e) = (dat0 (V1 m ρ) c).arrAt 2 cfg0.N (ix2 (row b n) (feat 0 h e)) := by
  refine (congrFun (v8_term m ρ c) (ix3 (bhd b h) n e)).trans ?_
  exact chain_apply _ 0 0 rfl slices_S3x4x16x2048x64_S1x4x16x2048x64_0_0_0_0_0 b h n e
/-- Stage 2's keys: part 1. -/
theorem read_v11 (b : Fin 4) (h : Fin 16) (n : Fin 2048) (e : Fin 64) :
    V3 m ρ c main_v11 (ix3 (bhd b h) n e) = (dat0 (V1 m ρ) c).arrAt 2 cfg0.N (ix2 (row b n) (feat 1 h e)) := by
  refine (congrFun (v11_term m ρ c) (ix3 (bhd b h) n e)).trans ?_
  exact chain_apply _ 1 1 rfl slices_S3x4x16x2048x64_S1x4x16x2048x64_1_0_0_0_0 b h n e
/-- Stage 2's values: part 2. -/
theorem read_v14 (b : Fin 4) (h : Fin 16) (n : Fin 2048) (e : Fin 64) :
    V3 m ρ c main_v14 (ix3 (bhd b h) n e) = (dat0 (V1 m ρ) c).arrAt 2 cfg0.N (ix2 (row b n) (feat 2 h e)) := by
  refine (congrFun (v14_term m ρ c) (ix3 (bhd b h) n e)).trans ?_
  exact chain_apply _ 2 2 rfl slices_S3x4x16x2048x64_S1x4x16x2048x64_2_0_0_0_0 b h n e
/-- Stage 2's bias is the bias argument (a change of float format is the identity on the extended reals). -/
theorem read_v15 (n k : Fin 2048) :
    V3 m ρ c main_v15 (ix2 n k) = m ((c : Thread nD τ).loc main_arg4) (ix2 n k) := by
  refine (congrFun (v15_term m ρ c) (ix2 n k)).trans ?_
  exact truncf_apply _ bitsLt_bf16_f32 (ix2 n k)

end Cert.Attn.HostRead1

end
-- ==== Proof.HostRead2.lean ====
/-
  The operand arrays of stage 3 and the program's result as the host operations leave them: each read at an index from
  the argument arrays, or from the array the stage before left.
-/
import proofs.«420827_j28252294873693_3_alg».proof.Proof.Gen.KernelIdeal.Frame
import proofs.«420827_j28252294873693_3_alg».proof.Proof.Spec
import Idealize.ShloMosaic.Lib.Pipeline.Value
import Idealize.ShloMosaic.Lib.StableHlo.Run

set_option maxRecDepth 16384

noncomputable section

namespace Cert.Attn.HostRead2

open Cert.KernelIdeal Cert.KernelIdeal.Gen Cert.Attn.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

/-! ## The argument arrays at stage 2's exit

Neither a host operation nor a stage before stage 3 writes the projection matrix or the bias vector, so what stage 2's
exit holds there is what the launch memory held. -/

/-- No operation of a stretch writes the buffer read: the stretch leaves it as it was. -/
local macro "untouched" : tactic => `(tactic| (
  refine StableHlo.after_of_forall_not_mem _ _ (List.forall_iff_forall_mem.mp ?_)
  simp only [hostOps0, hostOps1, List.Forall, StableHlo.unary_writes, StableHlo.reshape_writes, Finset.mem_singleton]
  repeat' apply And.intro
  all_goals exact StableHlo.devRef_ne_of_ne (by decide)))

/-- The projection matrix reaches stage 2's exit as launched. -/
theorem W4_main_arg2 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by untouched
    _ = W1 m ρ c (Proc.devRef .tc main_arg2) := W2_of_ne m ρ c main_arg2 (by decide)
    _ = W0 m ρ c (Proc.devRef .tc main_arg2) := by untouched
    _ = m ((c : Thread nD τ).loc main_arg2) := rfl

/-- The bias vector reaches stage 2's exit as launched. -/
theorem W4_main_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by untouched
    _ = W1 m ρ c (Proc.devRef .tc main_arg3) := W2_of_ne m ρ c main_arg3 (by decide)
    _ = W0 m ρ c (Proc.devRef .tc main_arg3) := by untouched
    _ = m ((c : Thread nD τ).loc main_arg3) := rfl

/-! ## Each buffer as the host operations' term of its source -/

/-- Stage 3's left operand: stage 2's output with its leading axis split into batch and head, the head and sequence
    axes exchanged, and then rows (batch, sequence) and columns (head, coordinate) flattened. -/
theorem v19_term :
    V5 m ρ c main_v19
      = shapeCast S8192x1024
          (transpose S4x2048x16x64 [0, 2, 1, 3]
            (shapeCast S4x16x2048x64 (W4 m ρ c (Proc.devRef .tc main_v16)) shapeCasts_S64x2048x64_S4x16x2048x64)
            transposes_S4x16x2048x64_S4x2048x16x64_0_2_1_3)
          shapeCasts_S4x2048x16x64_S8192x1024 := by
  show StableHlo.after hostOps2 _ (Proc.devRef .tc main_v19) = _
  after_results
  rfl

/-- Stage 3's right operand: the projection matrix with its two axes exchanged, then narrowed. -/
theorem v21_term :
    V5 m ρ c main_v21
      = truncf (F := Ideal) (s := S1024x1024) (φ := .f32) .bf16
          (transpose S1024x1024 [1, 0] (W4 m ρ c (Proc.devRef .tc main_arg2)) transposes_S1024x1024_S1024x1024_1_0)
          bitsLt_bf16_f32 := by
  show StableHlo.after hostOps2 _ (Proc.devRef .tc main_v21) = _
  after_results

/-- Stage 3's row vector: the bias argument with a unit leading axis added. -/
theorem v22_term :
    V5 m ρ c main_v22 = shapeCast S1x1024 (W4 m ρ c (Proc.devRef .tc main_arg3)) shapeCasts_S1024_S1x1024 := by
  show StableHlo.after hostOps2 _ (Proc.devRef .tc main_v22) = _
  after_results
  rfl

/-- The result: stage 3's output with its row axis split into batch and sequence. -/
theorem v24_term :
    W7 m ρ c (Proc.devRef .tc main_v24)
      = shapeCast S4x2048x1024 (W6 m ρ c (Proc.devRef .tc main_v23)) shapeCasts_S8192x1024_S4x2048x1024 := by
  show StableHlo.after hostOps3 _ (Proc.devRef .tc main_v24) = _
  after_results
  rfl

/-! ## The terms read at an index

A reshape keeps the row-major position; a transpose reads the operand at the permuted coordinates; narrowing is the
identity on the extended reals. -/

/-- Stage 3's left operand: stage 2's output with the heads laid side by side. -/
theorem read_v19 (b : Fin 4) (h : Fin 16) (n : Fin 2048) (d : Fin 64) :
    V5 m ρ c main_v19 (ix2 (row b n) (col h d)) = (dat1 (V3 m ρ) c).arrAt 4 cfg1.N (ix3 (bhd b h) n d) := by
  rw [v19_term]
  have e4 : W4 m ρ c (Proc.devRef .tc main_v16) = (dat1 (V3 m ρ) c).arrAt 4 cfg1.N := W4_arr m ρ c 4
  rw [e4]
  -- position (b·2048 + n)·1024 + (h·64 + d) of [8192, 1024] is position ((b·2048 + n)·16 + h)·64 + d of [4, 2048, 16, 64]
  refine (shapeCast_apply (s := S4x2048x16x64) (t := S8192x1024) _ _ (ix2 (row b n) (col h d)) (ix4 b n h d) ?_).trans ?_
  · rw [Shape.rowMajor_val_two, Shape.rowMajor_val_four]
    show ((b.val * 2048 + n.val) * 16 + h.val) * 64 + d.val = (b.val * 2048 + n.val) * 1024 + (h.val * 64 + d.val)
    omega
  -- the exchange of the sequence and head axes
  refine (transpose_apply (s := S4x16x2048x64) (t := S4x2048x16x64) [0, 2, 1, 3] _ _ (ix4 b n h d) (ix4 b h n d) (fun a => match a with
    | ⟨0, _⟩ => rfl
    | ⟨1, _⟩ => rfl
    | ⟨2, _⟩ => rfl
    | ⟨3, _⟩ => rfl)).trans ?_
  -- position ((b·16 + h)·2048 + n)·64 + d of [4, 16, 2048, 64] is the same position of [64, 2048, 64]
  refine shapeCast_apply (s := S64x2048x64) (t := S4x16x2048x64) _ _ (ix4 b h n d) (ix3 (bhd b h) n d) ?_
  rw [Shape.rowMajor_val_three, Shape.rowMajor_val_four]
  show ((b.val * 16 + h.val) * 2048 + n.val) * 64 + d.val = ((b.val * 16 + h.val) * 2048 + n.val) * 64 + d.val
  rfl
/-- Stage 3's right operand is the output projection matrix transposed. -/
theorem read_v21 (k o : Fin 1024) :
    V5 m ρ c main_v21 (ix2 k o) = m ((c : Thread nD τ).loc main_arg2) (ix2 o k) := by
  rw [v21_term, W4_main_arg2]
  refine (truncf_apply (ψ := .bf16) (φ := .f32) (s := S1024x1024) _ bitsLt_bf16_f32 (ix2 k o)).trans ?_
  exact transpose_apply (s := S1024x1024) (t := S1024x1024) [1, 0] _ _ (ix2 k o) (ix2 o k) (fun b => match b with
    | ⟨0, _⟩ => rfl
    | ⟨1, _⟩ => rfl)
/-- Stage 3's row vector is the bias argument. -/
theorem read_v22 (o : Fin 1024) :
    V5 m ρ c main_v22 (ix2 (0 : Fin 1) o) = m ((c : Thread nD τ).loc main_arg3) (ix1 o) := by
  rw [v22_term, W4_main_arg3]
  refine shapeCast_apply (s := S1024) (t := S1x1024) _ _ _ _ ?_
  rw [Shape.rowMajor_val_one, Shape.rowMajor_val_two]
  show o.val = 0 * 1024 + o.val
  omega
/-- The result is stage 3's output with batch and sequence unflattened. -/
theorem read_v24 (b : Fin 4) (n : Fin 2048) (o : Fin 1024) :
    W7 m ρ c (Proc.devRef .tc main_v24) (ix3 b n o) = (dat2 (V5 m ρ) c).arrAt 3 cfg2.N (ix2 (row b n) o) := by
  rw [v24_term]
  have e6 : W6 m ρ c (Proc.devRef .tc main_v23) = (dat2 (V5 m ρ) c).arrAt 3 cfg2.N := W6_arr m ρ c 3
  rw [e6]
  -- position (b·2048 + n)·1024 + o of [4, 2048, 1024] is the same position of [8192, 1024]
  refine shapeCast_apply (s := S8192x1024) (t := S4x2048x1024) _ _ _ _ ?_
  rw [Shape.rowMajor_val_two, Shape.rowMajor_val_three]
  rfl

end Cert.Attn.HostRead2

end
-- ==== Proof.Compose.lean ====
/-
  The kernel's result, index by index, as the output projection of the attention (division last) of the argument
  arrays: the three stages' arrays composed through the reshapes, transposes and slices between them.  Stage 1's
  operands are the flattened input and the transposed projection matrix, so its output at row `b * 2048 + n`, feature `f`
  is the projection `qkv b n f`; stage 2's queries, keys and values are the three parts of that output head by head, so
  its output at head `b * 16 + h` is the attention of head `(b, h)`; stage 3's left operand lays the heads side by side,
  column `c` being head `c / 64`, coordinate `c % 64`.
-/
import proofs.«420827_j28252294873693_3_alg».proof.Proof.Gen.KernelIdeal.Frame
import proofs.«420827_j28252294873693_3_alg».proof.Proof.Spec
import proofs.«420827_j28252294873693_3_alg».proof.Proof.Reg0
import proofs.«420827_j28252294873693_3_alg».proof.Proof.Reg1
import proofs.«420827_j28252294873693_3_alg».proof.Proof.Reg2
import proofs.«420827_j28252294873693_3_alg».proof.Proof.HostRead1
import proofs.«420827_j28252294873693_3_alg».proof.Proof.HostRead2

set_option maxRecDepth 16384

noncomputable section

namespace Cert.Attn.Compose

open Cert.KernelIdeal Cert.KernelIdeal.Gen Cert.Attn.Spec
open Idealize.ShloMosaic Idealize.ShloMosaic.TcCoe Idealize.ShloMosaic.ValueIdx Idealize.SL.Sem
open Idealize.ShloMosaic.Pipeline (Dat Cfg Window)
open Cert.Attn.HostRead1 Cert.Attn.HostRead2

variable (m : (ℓ : Loc nD τ sig) → Buf (Elt Ideal) ℓ) (ρ : Dev nD → PrngReg) (c : Dev nD)

/-- Stage 1's output at row `(b, n)`, feature `f` is the projection of that row at that feature: the sum over the
    1024 input coordinates of the input times the projection matrix's row `f`. -/
theorem stage1_at (b : Fin 4) (n : Fin 2048) (f : Fin 3072) :
    (dat0 (V1 m ρ) c).arrAt 2 cfg0.N (ix2 (row b n) f) = qkv (m ((c : Thread nD τ).loc main_arg0)) (m ((c : Thread nD τ).loc main_arg1)) b n f := by
  have hsum : mm (V1 m ρ c main_v0) (V1 m ρ c main_v2) (row b n) f = qkv (m ((c : Thread nD τ).loc main_arg0)) (m ((c : Thread nD τ).loc main_arg1)) b n f := by
    unfold mm qkv
    exact Finset.sum_congr rfl fun k _ => by rw [read_v0, read_v2]
  rw [Reg0.arr_apply]
  exact hsum

/-- Stage 2's queries, keys and values are the projected features of their part and head. -/
theorem queries_at (b : Fin 4) (h : Fin 16) (n : Fin 2048) (e : Fin 64) :
    V3 m ρ c main_v8 (ix3 (bhd b h) n e) = qkv (m ((c : Thread nD τ).loc main_arg0)) (m ((c : Thread nD τ).loc main_arg1)) b n (feat 0 h e) := by
  rw [read_v8, stage1_at]
theorem keys_at (b : Fin 4) (h : Fin 16) (n : Fin 2048) (e : Fin 64) :
    V3 m ρ c main_v11 (ix3 (bhd b h) n e) = qkv (m ((c : Thread nD τ).loc main_arg0)) (m ((c : Thread nD τ).loc main_arg1)) b n (feat 1 h e) := by
  rw [read_v11, stage1_at]
theorem values_at (b : Fin 4) (h : Fin 16) (n : Fin 2048) (e : Fin 64) :
    V3 m ρ c main_v14 (ix3 (bhd b h) n e) = qkv (m ((c : Thread nD τ).loc main_arg0)) (m ((c : Thread nD τ).loc main_arg1)) b n (feat 2 h e) := by
  rw [read_v14, stage1_at]

/-- So a head's scores over stage 2's arrays are the scores over the arguments, -/
theorem scores_at (b : Fin 4) (h : Fin 16) (n k : Fin 2048) :
    sc1 (V3 m ρ c main_v8) (V3 m ρ c main_v11) (V3 m ρ c main_v15) (bhd b h) n k = sc (m ((c : Thread nD τ).loc main_arg0)) (m ((c : Thread nD τ).loc main_arg1)) (m ((c : Thread nD τ).loc main_arg4)) b h n k := by
  unfold sc1 sc
  rw [read_v15]
  refine congrArg (fun t => t * eighth + _) (Finset.sum_congr rfl fun e _ => ?_)
  rw [queries_at, keys_at]

/-- and stage 2's output at head `b * 16 + h` is the attention of head `(b, h)`, the division last. -/
theorem stage2_at (b : Fin 4) (h : Fin 16) (n : Fin 2048) (d : Fin 64) :
    (dat1 (V3 m ρ) c).arrAt 4 cfg1.N (ix3 (bhd b h) n d) = attK (m ((c : Thread nD τ).loc main_arg0)) (m ((c : Thread nD τ).loc main_arg1)) (m ((c : Thread nD τ).loc main_arg4)) b h n d := by
  rw [Reg1.arr_apply]
  have hmx : mx1 (V3 m ρ c main_v8) (V3 m ρ c main_v11) (V3 m ρ c main_v15) (bhd b h) n = mx (m ((c : Thread nD τ).loc main_arg0)) (m ((c : Thread nD τ).loc main_arg1)) (m ((c : Thread nD τ).loc main_arg4)) b h n := by
    unfold mx1 mx
    exact congrArg (Finset.fold max ninf · Finset.univ) (funext fun k => scores_at m ρ c b h n k)
  have hpe : ∀ k, pe1 (V3 m ρ c main_v8) (V3 m ρ c main_v11) (V3 m ρ c main_v15) (bhd b h) n k = pe (m ((c : Thread nD τ).loc main_arg0)) (m ((c : Thread nD τ).loc main_arg1)) (m ((c : Thread nD τ).loc main_arg4)) b h n k := by
    intro k; unfold pe1 pe; rw [scores_at, hmx]
  have hden : den1 (V3 m ρ c main_v8) (V3 m ρ c main_v11) (V3 m ρ c main_v15) (bhd b h) n = den (m ((c : Thread nD τ).loc main_arg0)) (m ((c : Thread nD τ).loc main_arg1)) (m ((c : Thread nD τ).loc main_arg4)) b h n := by
    unfold den1 den; exact Finset.sum_congr rfl fun k _ => hpe k
  unfold att1 attK
  rw [hden]
  exact congrArg (fun t => Ideal.div t _) (Finset.sum_congr rfl fun k _ => by rw [hpe, values_at])

/-- Stage 3's left operand at row `(b, n)`, column `k` is head `k / 64`'s attention at coordinate `k % 64`. -/
theorem heads_at (b : Fin 4) (n : Fin 2048) (k : Fin 1024) :
    V5 m ρ c main_v19 (ix2 (row b n) k) = attK (m ((c : Thread nD τ).loc main_arg0)) (m ((c : Thread nD τ).loc main_arg1)) (m ((c : Thread nD τ).loc main_arg4)) b ⟨k.val / 64, by omega⟩ n ⟨k.val % 64, by omega⟩ := by
  have hk : col ⟨k.val / 64, by omega⟩ ⟨k.val % 64, by omega⟩ = k := Fin.ext (by show k.val / 64 * 64 + k.val % 64 = k.val; omega)
  have h := read_v19 m ρ c b ⟨k.val / 64, by omega⟩ n ⟨k.val % 64, by omega⟩
  rw [hk] at h
  rw [h, stage2_at]

/-- The result buffer at the last boundary, read at `(b, n, o)`. -/
theorem kval (b : Fin 4) (n : Fin 2048) (o : Fin 1024) :
    W7 m ρ c (Proc.devRef .tc main_v24) (ix3 b n o)
      = out (attK (m ((c : Thread nD τ).loc main_arg0)) (m ((c : Thread nD τ).loc main_arg1)) (m ((c : Thread nD τ).loc main_arg4)))
          (m ((c : Thread nD τ).loc main_arg2)) (m ((c : Thread nD τ).loc main_arg3)) b n o := by
  rw [read_v24, Reg2.arr_apply]
  unfold mmb out
  rw [read_v22]
  refine congrArg (· + _) (Finset.sum_congr rfl fun k _ => ?_)
  rw [read_v21, heads_at]

end Cert.Attn.Compose

end
-- ==== Proof.RefScore.lean ====
/-
  The reference's projections and scores read at an index.
-/
import proofs.«420827_j28252294873693_3_alg».proof.Proof.Gen.ReferenceIdeal.Read
import proofs.«420827_j28252294873693_3_alg».proof.Proof.Spec
import Idealize.ShloMosaic.Lib.Pipeline.Value

set_option maxRecDepth 16384

noncomputable section

namespace Cert.Attn.RefScore

open Cert.ReferenceIdeal Cert.ReferenceIdeal.Gen Cert.ReferenceIdeal.Read Cert.Attn.Spec
open Idealize.ShloMosaic Idealize.ShloMosaic.TcCoe Idealize.ShloMosaic.ValueIdx Idealize.SL.Sem

/-! ## Where each layout operation reads

The projection `[4, 2048, 3072]` is regrouped as `[4, 2048, 3, 16, 64]` (feature `s * 1024 + h * 64 + e` becomes
`(s, h, e)`), its axes are permuted to `[3, 4, 16, 2048, 64]`, part `s` is cut out as a leading axis of size one, and
that axis is dropped.  Each step reads one element of its operand; the equations below say which, at an index written
by its coordinates. -/

/-- Dropping the leading unit axis: the row-major position of `(b, h, n, e)` in `[4, 16, 2048, 64]` is that of
    `(0, b, h, n, e)` in `[1, 4, 16, 2048, 64]`. -/
theorem unit_drop (b : Fin 4) (h : Fin 16) (n : Fin 2048) (e : Fin 64) :
    idx_main_v4 (ix4 b h n e) = ix5 (0 : Fin 1) b h n e := by
  have hb := b.isLt; have hh := h.isLt; have hn := n.isLt; have he := e.isLt
  funext a
  match a with
  | ⟨0, _⟩ => rfl
  | ⟨1, _⟩ => exact Fin.ext (by show (((b.val * 16 + h.val) * 2048 + n.val) * 64 + e.val) / 2097152 % 4 = b.val; omega)
  | ⟨2, _⟩ => exact Fin.ext (by show (((b.val * 16 + h.val) * 2048 + n.val) * 64 + e.val) / 131072 % 16 = h.val; omega)
  | ⟨3, _⟩ => exact Fin.ext (by show (((b.val * 16 + h.val) * 2048 + n.val) * 64 + e.val) / 64 % 2048 = n.val; omega)
  | ⟨4, _⟩ => exact Fin.ext (by show (((b.val * 16 + h.val) * 2048 + n.val) * 64 + e.val) % 64 = e.val; omega)

/-- The same for the keys' copy of that reshape. -/
theorem unit_drop_k (b : Fin 4) (h : Fin 16) (n : Fin 2048) (e : Fin 64) :
    idx_main_v6 (ix4 b h n e) = ix5 (0 : Fin 1) b h n e := unit_drop b h n e

/-- The same for the values' copy of that reshape. -/
theorem unit_drop_v (b : Fin 4) (h : Fin 16) (n : Fin 2048) (e : Fin 64) :
    idx_main_v8 (ix4 b h n e) = ix5 (0 : Fin 1) b h n e := unit_drop b h n e

/-- The slice at offset 0 along the leading axis reads part 0. -/
theorem part_q (b : Fin 4) (h : Fin 16) (n : Fin 2048) (e : Fin 64) :
    idx_main_v3 (ix5 (0 : Fin 1) b h n e) = ix5 (0 : Fin 3) b h n e := by
  funext a
  match a with
  | ⟨0, _⟩ => rfl
  | ⟨1, _⟩ => rfl
  | ⟨2, _⟩ => rfl
  | ⟨3, _⟩ => rfl
  | ⟨4, _⟩ => rfl

/-- The slice at offset 1 along the leading axis reads part 1. -/
theorem part_k (b : Fin 4) (h : Fin 16) (n : Fin 2048) (e : Fin 64) :
    idx_main_v5 (ix5 (0 : Fin 1) b h n e) = ix5 (1 : Fin 3) b h n e := by
  funext a
  match a with
  | ⟨0, _⟩ => rfl
  | ⟨1, _⟩ => rfl
  | ⟨2, _⟩ => rfl
  | ⟨3, _⟩ => rfl
  | ⟨4, _⟩ => rfl

/-- The slice at offset 2 along the leading axis reads part 2. -/
theorem part_v (b : Fin 4) (h : Fin 16) (n : Fin 2048) (e : Fin 64) :
    idx_main_v7 (ix5 (0 : Fin 1) b h n e) = ix5 (2 : Fin 3) b h n e := by
  funext a
  match a with
  | ⟨0, _⟩ => rfl
  | ⟨1, _⟩ => rfl
  | ⟨2, _⟩ => rfl
  | ⟨3, _⟩ => rfl
  | ⟨4, _⟩ => rfl

/-- The permutation `[2, 0, 3, 1, 4]`: position `(s, b, h, n, e)` of the result is position `(b, n, s, h, e)` of the
    operand. -/
theorem perm (s : Fin 3) (b : Fin 4) (h : Fin 16) (n : Fin 2048) (e : Fin 64) :
    idx_main_v2 (ix5 s b h n e) = ix5 b n s h e := by
  funext a
  match a with
  | ⟨0, _⟩ => rfl
  | ⟨1, _⟩ => rfl
  | ⟨2, _⟩ => rfl
  | ⟨3, _⟩ => rfl
  | ⟨4, _⟩ => rfl

/-- Regrouping the 3072 features: `(b, n, s, h, e)` in `[4, 2048, 3, 16, 64]` sits where `(b, n, s * 1024 + h * 64 + e)`
    does in `[4, 2048, 3072]`. -/
theorem regroup (s : Fin 3) (b : Fin 4) (h : Fin 16) (n : Fin 2048) (e : Fin 64) :
    idx_main_v1 (ix5 b n s h e) = ix3 b n (feat s h e) := by
  have hb := b.isLt; have hh := h.isLt; have hn := n.isLt; have he := e.isLt; have hs := s.isLt
  funext a
  match a with
  | ⟨0, _⟩ => exact Fin.ext (by show ((((b.val * 2048 + n.val) * 3 + s.val) * 16 + h.val) * 64 + e.val) / 6291456 = b.val; omega)
  | ⟨1, _⟩ => exact Fin.ext (by show ((((b.val * 2048 + n.val) * 3 + s.val) * 16 + h.val) * 64 + e.val) / 3072 % 2048 = n.val; omega)
  | ⟨2, _⟩ => exact Fin.ext (by show ((((b.val * 2048 + n.val) * 3 + s.val) * 16 + h.val) * 64 + e.val) % 3072 = s.val * 1024 + h.val * 64 + e.val; omega)

/-- The projection's term `c` reads the input row `(b, n)` at column `c`. -/
theorem proj_lhs (b : Fin 4) (n : Fin 2048) (f : Fin 3072) (c : Fin 1024) :
    lidx_main_v0 (ix3 b n f) c = ix3 b n c := by
  funext a
  match a with
  | ⟨0, _⟩ => rfl
  | ⟨1, _⟩ => rfl
  | ⟨2, _⟩ => rfl

/-- The projection's term `c` reads the weight's row `f` at column `c`. -/
theorem proj_rhs (b : Fin 4) (n : Fin 2048) (f : Fin 3072) (c : Fin 1024) :
    ridx_main_v0 (ix3 b n f) c = ix2 f c := by
  funext a
  match a with
  | ⟨0, _⟩ => rfl
  | ⟨1, _⟩ => rfl

/-- The regrouped, permuted projection at `(s, b, h, n, e)` is the projected feature `s * 1024 + h * 64 + e` of row
    `(b, n)`: the sum over the 1024 input columns. -/
theorem val_parts (x0 : (⟨S4x2048x1024, .f32⟩ : BufTy).Contents (Elt Ideal)) (x1 : (⟨S3072x1024, .f32⟩ : BufTy).Contents (Elt Ideal)) (s : Fin 3) (b : Fin 4) (h : Fin 16) (n : Fin 2048) (e : Fin 64) :
    val_main_v2 (F := Ideal) x0 x1 (ix5 s b h n e) = qkv x0 x1 b n (feat s h e) := by
  rw [val_main_v2_apply, perm, val_main_v1_apply, regroup, val_main_v0_apply]
  unfold qkv
  refine Finset.sum_congr rfl fun c _ => ?_
  rw [proj_lhs, proj_rhs]

/-- The reference's queries (`s = 0`), keys (`s = 1`) and values (`s = 2`) are the projected features of their head. -/
theorem val_q (x0 : (⟨S4x2048x1024, .f32⟩ : BufTy).Contents (Elt Ideal)) (x1 : (⟨S3072x1024, .f32⟩ : BufTy).Contents (Elt Ideal)) (b : Fin 4) (h : Fin 16) (n : Fin 2048) (e : Fin 64) :
    val_main_v4 (F := Ideal) x0 x1 (ix4 b h n e) = qkv x0 x1 b n (feat 0 h e) := by
  rw [val_main_v4_apply, unit_drop, val_main_v3_apply, part_q, val_parts]
theorem val_k (x0 : (⟨S4x2048x1024, .f32⟩ : BufTy).Contents (Elt Ideal)) (x1 : (⟨S3072x1024, .f32⟩ : BufTy).Contents (Elt Ideal)) (b : Fin 4) (h : Fin 16) (n : Fin 2048) (e : Fin 64) :
    val_main_v6 (F := Ideal) x0 x1 (ix4 b h n e) = qkv x0 x1 b n (feat 1 h e) := by
  rw [val_main_v6_apply, unit_drop_k, val_main_v5_apply, part_k, val_parts]
theorem val_v (x0 : (⟨S4x2048x1024, .f32⟩ : BufTy).Contents (Elt Ideal)) (x1 : (⟨S3072x1024, .f32⟩ : BufTy).Contents (Elt Ideal)) (b : Fin 4) (h : Fin 16) (n : Fin 2048) (e : Fin 64) :
    val_main_v8 (F := Ideal) x0 x1 (ix4 b h n e) = qkv x0 x1 b n (feat 2 h e) := by
  rw [val_main_v8_apply, unit_drop_v, val_main_v7_apply, part_v, val_parts]

/-! ## The scores

The batched product over `(b, h)` contracts the 64 coordinates of a head; the scale and the bias are broadcast. -/

/-- Term `e` of the score `(b, h, n, k)` reads the query row `n` at coordinate `e`. -/
theorem score_lhs (b : Fin 4) (h : Fin 16) (n k : Fin 2048) (e : Fin 64) :
    lidx_main_v9 (ix4 b h n k) e = ix4 b h n e := by
  funext a
  match a with
  | ⟨0, _⟩ => rfl
  | ⟨1, _⟩ => rfl
  | ⟨2, _⟩ => rfl
  | ⟨3, _⟩ => rfl

/-- Term `e` of the score `(b, h, n, k)` reads the key row `k` at coordinate `e`. -/
theorem score_rhs (b : Fin 4) (h : Fin 16) (n k : Fin 2048) (e : Fin 64) :
    ridx_main_v9 (ix4 b h n k) e = ix4 b h k e := by
  funext a
  match a with
  | ⟨0, _⟩ => rfl
  | ⟨1, _⟩ => rfl
  | ⟨2, _⟩ => rfl
  | ⟨3, _⟩ => rfl

/-- The bias, broadcast over batch and head, is read at `(n, k)`. -/
theorem bias_at (b : Fin 4) (h : Fin 16) (n k : Fin 2048) :
    idx_main_v12 (idx_main_v13 (ix4 b h n k)) = ix2 n k := by
  funext a
  match a with
  | ⟨0, _⟩ => rfl
  | ⟨1, _⟩ => rfl

/-- The reference's biased, scaled scores. -/
theorem val_sc (x0 : (⟨S4x2048x1024, .f32⟩ : BufTy).Contents (Elt Ideal)) (x1 : (⟨S3072x1024, .f32⟩ : BufTy).Contents (Elt Ideal)) (x4 : (⟨S2048x2048, .f32⟩ : BufTy).Contents (Elt Ideal)) (b : Fin 4) (h : Fin 16) (n k : Fin 2048) :
    val_main_v14 (F := Ideal) x0 x1 x4 (ix4 b h n k) = sc x0 x1 x4 b h n k := by
  have hs : (∑ e : Fin 64, val_main_v4 (F := Ideal) x0 x1 (lidx_main_v9 (ix4 b h n k) e) * val_main_v6 (F := Ideal) x0 x1 (ridx_main_v9 (ix4 b h n k) e))
      = ∑ e : Fin 64, qkv x0 x1 b n (feat 0 h e) * qkv x0 x1 b k (feat 1 h e) :=
    Finset.sum_congr rfl fun e _ => by rw [score_lhs, score_rhs, val_q, val_k]
  rw [val_main_v14_apply, val_main_v11_apply, val_main_v13_apply, val_main_v12_apply, val_main_v10_apply, val_main_cst_apply,
    val_main_v9_apply, bias_at, hs]
  simp only [Ideal.addf_def, Ideal.mulf_def, Ideal.ofBits_def]
  rfl

end Cert.Attn.RefScore

end
-- ==== Proof.RefAtt.lean ====
/-
  The reference's softmax and its weighted sum of the values read at an index.

  Row (b, h, n) of the scores is folded by `max` from `-∞` over the keys; a further maximum with `-∞` changes nothing,
  `-∞` being the least extended real.  Each score minus that maximum is exponentiated; the exponentials of the row are
  summed from zero; each exponential is divided by the row's sum; the quotients are summed against the values over the keys.
-/
import proofs.«420827_j28252294873693_3_alg».proof.Proof.Gen.ReferenceIdeal.Read
import proofs.«420827_j28252294873693_3_alg».proof.Proof.Spec
import proofs.«420827_j28252294873693_3_alg».proof.Proof.RefScore
import Idealize.ShloMosaic.Lib.Pipeline.Value
import Idealize.ShloMosaic.PureOps.Reduce
import Idealize.ShloMosaic.PureOps.Ideal.Laws

set_option maxRecDepth 16384

noncomputable section

namespace Cert.Attn.RefAtt

open Cert.ReferenceIdeal Cert.ReferenceIdeal.Gen Cert.ReferenceIdeal.Read Cert.Attn.Spec
open Idealize.ShloMosaic Idealize.ShloMosaic.TcCoe Idealize.ShloMosaic.ValueIdx Idealize.SL.Sem

/-- The word of `-∞` is the least extended real. -/
theorem ninf_eq_bot : (Ideal.ofBits .f32 0xFF800000#32 : EReal) = ⊥ := by simp [Ideal.ofBits, Ideal.ieee]

/-- Dropping the key axis of the scores' shape leaves the (batch, head, query) shape. -/
theorem reduces_keys : S4x16x2048x2048.Reduces [3] S4x16x2048 := by decide

/-- The index (b, h, n) with key `k` put back on the dropped axis is (b, h, n, k). -/
theorem lift_keys (b : Fin 4) (h : Fin 16) (n : Fin 2048) (k : Fin 2048) :
    reduces_keys.lift (ix3 b h n) k = ix4 b h n k :=
  funext fun a => Fin.ext (by
    match a with
    | ⟨0, _⟩ => rfl
    | ⟨1, _⟩ => rfl
    | ⟨2, _⟩ => rfl
    | ⟨3, _⟩ => rfl)

/-- The reference's row maximum: the fold of `max` from `-∞` over the keys of the scores of row (b, h, n). -/
theorem rowmax_apply (x0 : (⟨S4x2048x1024, .f32⟩ : BufTy).Contents (Elt Ideal)) (x1 : (⟨S3072x1024, .f32⟩ : BufTy).Contents (Elt Ideal)) (x4 : (⟨S2048x2048, .f32⟩ : BufTy).Contents (Elt Ideal)) (b : Fin 4) (h : Fin 16) (n : Fin 2048) :
    val_main_v15 (F := Ideal) x0 x1 x4 (ix3 b h n)
      = (Finset.univ : Finset (Fin 2048)).fold max ninf (fun m => val_main_v14 (F := Ideal) x0 x1 x4 (ix4 b h n m)) := by
  unfold val_main_v15
  generalize val_main_v14 (F := Ideal) x0 x1 x4 = y
  refine (Host.reduce_eq_fold_single (FloatOps.maximumf (F := Ideal) (φ := .f32)) y (val_main_cst_0 (F := Ideal)) reducesTo_S4x16x2048x2048_S4x16x2048_d3 reduces_keys h_S_ (ix3 b h n)).trans ?_
  have hf : (y ∘ reduces_keys.lift (ix3 b h n)) = fun m : Fin 2048 => y (ix4 b h n m) :=
    funext fun m => congrArg y (lift_keys b h n m)
  exact congrArg (fun f => Finset.fold max ninf f (Finset.univ : Finset (Fin 2048))) hf

/-- The reference's maximum of `-∞` and the row maximum is the row maximum `mx`: `-∞` is the least element, and the
    scores under the fold are `sc`. -/
theorem mx_apply (x0 : (⟨S4x2048x1024, .f32⟩ : BufTy).Contents (Elt Ideal)) (x1 : (⟨S3072x1024, .f32⟩ : BufTy).Contents (Elt Ideal)) (x4 : (⟨S2048x2048, .f32⟩ : BufTy).Contents (Elt Ideal)) (b : Fin 4) (h : Fin 16) (n : Fin 2048) :
    val_main_v17 (F := Ideal) x0 x1 x4 (ix3 b h n) = mx x0 x1 x4 b h n := by
  rw [val_main_v17_apply, val_main_v16_apply, val_main_cst_1_apply, rowmax_apply]
  simp only [Ideal.maximumf_def, Ideal.ofBits_def]
  have hb : ∀ y : EReal, max (Ideal.ofBits .f32 0xFF800000#32 : EReal) y = y :=
    fun y => max_eq_right (by rw [ninf_eq_bot]; exact bot_le)
  rw [hb]
  unfold mx
  exact congrArg (fun f => Finset.fold max ninf f (Finset.univ : Finset (Fin 2048)))
    (funext fun m => RefScore.val_sc x0 x1 x4 b h n m)

/-- The row maximum broadcast along the keys, at (b, h, n, m), is the row maximum of (b, h, n). -/
theorem mxb_apply (x0 : (⟨S4x2048x1024, .f32⟩ : BufTy).Contents (Elt Ideal)) (x1 : (⟨S3072x1024, .f32⟩ : BufTy).Contents (Elt Ideal)) (x4 : (⟨S2048x2048, .f32⟩ : BufTy).Contents (Elt Ideal)) (b : Fin 4) (h : Fin 16) (n m : Fin 2048) :
    val_main_v19 (F := Ideal) x0 x1 x4 (ix4 b h n m) = mx x0 x1 x4 b h n := by
  have e19 : idx_main_v19 (ix4 b h n m) = ix4 b h n (0 : Fin 1) := funext fun a => Fin.ext (by
    match a with
    | ⟨0, _⟩ => rfl
    | ⟨1, _⟩ => rfl
    | ⟨2, _⟩ => rfl
    | ⟨3, _⟩ => rfl)
  have e18 : idx_main_v18 (ix4 b h n (0 : Fin 1)) = ix3 b h n := funext fun a => Fin.ext (by
    match a with
    | ⟨0, _⟩ => rfl
    | ⟨1, _⟩ => rfl
    | ⟨2, _⟩ => rfl)
  rw [val_main_v19_apply, e19, val_main_v18_apply, e18, mx_apply]

/-- The reference's exponential of a score shifted by its row's maximum is `pe`. -/
theorem pe_apply (x0 : (⟨S4x2048x1024, .f32⟩ : BufTy).Contents (Elt Ideal)) (x1 : (⟨S3072x1024, .f32⟩ : BufTy).Contents (Elt Ideal)) (x4 : (⟨S2048x2048, .f32⟩ : BufTy).Contents (Elt Ideal)) (b : Fin 4) (h : Fin 16) (n m : Fin 2048) :
    val_main_v21 (F := Ideal) x0 x1 x4 (ix4 b h n m) = pe x0 x1 x4 b h n m := by
  rw [val_main_v21_apply, val_main_v20_apply, mxb_apply, RefScore.val_sc]
  simp only [Ideal.hostUnary_exp_def, Ideal.subf_def]
  rfl

/-- The reference's row sum of the exponentials, from the zero word, is `den`. -/
theorem den_apply (x0 : (⟨S4x2048x1024, .f32⟩ : BufTy).Contents (Elt Ideal)) (x1 : (⟨S3072x1024, .f32⟩ : BufTy).Contents (Elt Ideal)) (x4 : (⟨S2048x2048, .f32⟩ : BufTy).Contents (Elt Ideal)) (b : Fin 4) (h : Fin 16) (n : Fin 2048) :
    val_main_v22 (F := Ideal) x0 x1 x4 (ix3 b h n) = den x0 x1 x4 b h n := by
  rw [val_main_v22_apply, val_main_cst_2_apply]
  simp only [Ideal.ofBits_def, Ideal.ofBits_zero_f32, zero_add]
  unfold den
  refine Finset.sum_congr rfl fun m _ => ?_
  have e : idx_main_v22 (ix3 b h n) m = ix4 b h n m := funext fun a => Fin.ext (by
    match a with
    | ⟨0, _⟩ => rfl
    | ⟨1, _⟩ => rfl
    | ⟨2, _⟩ => rfl
    | ⟨3, _⟩ => rfl)
  rw [e, pe_apply]

/-- The row sum broadcast along the keys, at (b, h, n, m), is the row sum of (b, h, n). -/
theorem denb_apply (x0 : (⟨S4x2048x1024, .f32⟩ : BufTy).Contents (Elt Ideal)) (x1 : (⟨S3072x1024, .f32⟩ : BufTy).Contents (Elt Ideal)) (x4 : (⟨S2048x2048, .f32⟩ : BufTy).Contents (Elt Ideal)) (b : Fin 4) (h : Fin 16) (n m : Fin 2048) :
    val_main_v24 (F := Ideal) x0 x1 x4 (ix4 b h n m) = den x0 x1 x4 b h n := by
  have e24 : idx_main_v24 (ix4 b h n m) = ix4 b h n (0 : Fin 1) := funext fun a => Fin.ext (by
    match a with
    | ⟨0, _⟩ => rfl
    | ⟨1, _⟩ => rfl
    | ⟨2, _⟩ => rfl
    | ⟨3, _⟩ => rfl)
  have e23 : idx_main_v23 (ix4 b h n (0 : Fin 1)) = ix3 b h n := funext fun a => Fin.ext (by
    match a with
    | ⟨0, _⟩ => rfl
    | ⟨1, _⟩ => rfl
    | ⟨2, _⟩ => rfl)
  rw [val_main_v24_apply, e24, val_main_v23_apply, e23, den_apply]

/-- The reference's normalised weight: the exponential over its row's sum. -/
theorem wt_apply (x0 : (⟨S4x2048x1024, .f32⟩ : BufTy).Contents (Elt Ideal)) (x1 : (⟨S3072x1024, .f32⟩ : BufTy).Contents (Elt Ideal)) (x4 : (⟨S2048x2048, .f32⟩ : BufTy).Contents (Elt Ideal)) (b : Fin 4) (h : Fin 16) (n m : Fin 2048) :
    val_main_v25 (F := Ideal) x0 x1 x4 (ix4 b h n m) = Ideal.div (pe x0 x1 x4 b h n m) (den x0 x1 x4 b h n) := by
  rw [val_main_v25_apply, pe_apply, denb_apply]
  simp only [Ideal.hostDivf_def]

/-- The reference's attention output is `attR`: each exponential divided by its row's sum, then summed against the values. -/
theorem val_att (x0 : (⟨S4x2048x1024, .f32⟩ : BufTy).Contents (Elt Ideal)) (x1 : (⟨S3072x1024, .f32⟩ : BufTy).Contents (Elt Ideal)) (x4 : (⟨S2048x2048, .f32⟩ : BufTy).Contents (Elt Ideal)) (b : Fin 4) (h : Fin 16) (n : Fin 2048) (d : Fin 64) :
    val_main_v26 (F := Ideal) x0 x1 x4 (ix4 b h n d) = attR x0 x1 x4 b h n d := by
  rw [val_main_v26_apply]
  unfold attR
  refine Finset.sum_congr rfl fun m _ => ?_
  have el : lidx_main_v26 (ix4 b h n d) m = ix4 b h n m := funext fun a => Fin.ext (by
    match a with
    | ⟨0, _⟩ => rfl
    | ⟨1, _⟩ => rfl
    | ⟨2, _⟩ => rfl
    | ⟨3, _⟩ => rfl)
  have er : ridx_main_v26 (ix4 b h n d) m = ix4 b h m d := funext fun a => Fin.ext (by
    match a with
    | ⟨0, _⟩ => rfl
    | ⟨1, _⟩ => rfl
    | ⟨2, _⟩ => rfl
    | ⟨3, _⟩ => rfl)
  rw [el, er, wt_apply, RefScore.val_v]

end Cert.Attn.RefAtt

end
-- ==== Proof.RefOut.lean ====
/-
  The reference's result read at an index: the output projection of its attention.
-/
import proofs.«420827_j28252294873693_3_alg».proof.Proof.Gen.ReferenceIdeal.Read
import proofs.«420827_j28252294873693_3_alg».proof.Proof.Spec
import proofs.«420827_j28252294873693_3_alg».proof.Proof.RefAtt
import Idealize.ShloMosaic.Lib.Pipeline.Value

set_option maxRecDepth 16384

noncomputable section

namespace Cert.Attn.RefOut

open Cert.ReferenceIdeal Cert.ReferenceIdeal.Gen Cert.ReferenceIdeal.Read Cert.Attn.Spec
open Idealize.ShloMosaic Idealize.ShloMosaic.TcCoe Idealize.ShloMosaic.ValueIdx Idealize.SL.Sem

/-! ## Where each operand is read -/

/-- The projection's left operand at output position `(b, n, o)` and contraction index `c` is read at `(b, n, c)`. -/
theorem left_at (b : Fin 4) (n : Fin 2048) (o c : Fin 1024) :
    lidx_main_v29 (ix3 b n o) c = ix3 b n c :=
  funext fun a => Fin.ext (by
    match a with
    | ⟨0, _⟩ => rfl
    | ⟨1, _⟩ => rfl
    | ⟨2, _⟩ => rfl)

/-- The projection matrix at output position `(b, n, o)` and contraction index `c` is read at `(o, c)`. -/
theorem right_at (b : Fin 4) (n : Fin 2048) (o c : Fin 1024) :
    ridx_main_v29 (ix3 b n o) c = ix2 o c :=
  funext fun a => Fin.ext (by
    match a with
    | ⟨0, _⟩ => rfl
    | ⟨1, _⟩ => rfl)

/-- The heads laid side by side: column `c` of row `(b, n)` is head `c / 64`'s coordinate `c % 64`, by the
    row-major arithmetic of the reshape `[4, 2048, 16, 64] → [4, 2048, 1024]` followed by the exchange of the head
    and sequence axes. -/
theorem heads_at (b : Fin 4) (n : Fin 2048) (c : Fin 1024) :
    idx_main_v27 (idx_main_v28 (ix3 b n c))
      = ix4 b (⟨c.val / 64, by omega⟩ : Fin 16) n (⟨c.val % 64, by omega⟩ : Fin 64) :=
  funext fun a => Fin.ext (by
    have hb : b.val < 4 := b.isLt
    have hn : n.val < 2048 := n.isLt
    have hc : c.val < 1024 := c.isLt
    match a with
    | ⟨0, _⟩ => show ((b.val * 2048 + n.val) * 1024 + c.val) / 2097152 = b.val; omega
    | ⟨1, _⟩ => show ((b.val * 2048 + n.val) * 1024 + c.val) / 64 % 16 = c.val / 64; omega
    | ⟨2, _⟩ => show ((b.val * 2048 + n.val) * 1024 + c.val) / 1024 % 2048 = n.val; omega
    | ⟨3, _⟩ => show ((b.val * 2048 + n.val) * 1024 + c.val) % 64 = c.val % 64; omega)

/-- The bias vector broadcast over batch and sequence is read at `o`. -/
theorem bias_at (b : Fin 4) (n : Fin 2048) (o : Fin 1024) :
    idx_main_v30 (idx_main_v31 (ix3 b n o)) = ix1 o :=
  funext fun a => Fin.ext (by
    match a with
    | ⟨0, _⟩ => rfl)

/-- The reference's result is the output projection of `attR`. -/
theorem rval (x0 : (⟨S4x2048x1024, .f32⟩ : BufTy).Contents (Elt Ideal)) (x1 : (⟨S3072x1024, .f32⟩ : BufTy).Contents (Elt Ideal)) (x2 : (⟨S1024x1024, .f32⟩ : BufTy).Contents (Elt Ideal)) (x3 : (⟨S1024, .f32⟩ : BufTy).Contents (Elt Ideal)) (x4 : (⟨S2048x2048, .f32⟩ : BufTy).Contents (Elt Ideal))
    (b : Fin 4) (n : Fin 2048) (o : Fin 1024) :
    val_main_v32 (F := Ideal) x0 x1 x2 x3 x4 (ix3 b n o) = out (attR x0 x1 x4) x2 x3 b n o := by
  rw [val_main_v32_apply, val_main_v29_apply, val_main_v31_apply, val_main_v30_apply, bias_at]
  have hsum : ∀ c : Fin 1024,
      (val_main_v28 (F := Ideal) x0 x1 x4) (lidx_main_v29 (ix3 b n o) c) * x2 (ridx_main_v29 (ix3 b n o) c)
        = attR x0 x1 x4 b (⟨c.val / 64, by omega⟩ : Fin 16) n (⟨c.val % 64, by omega⟩ : Fin 64) * x2 (ix2 o c) := fun c => by
    rw [left_at, right_at, val_main_v28_apply, val_main_v27_apply, heads_at, RefAtt.val_att]
  rw [Finset.sum_congr rfl fun c _ => hsum c]
  simp only [Ideal.addf_def]
  rfl

end Cert.Attn.RefOut

end
-- ==== Proof.Softmax.lean ====
/-
  Dividing the weighted sum of the values by a row's sum of exponentials, or dividing each weight first, is the same
  when the inputs are real numbers: the scores are then real, their maximum is one of them, the exponentials are
  positive reals and so is their sum, and division by a non-zero real distributes over a finite sum of extended reals
  whose terms are all real.
-/
import proofs.«420827_j28252294873693_3_alg».proof.Proof.Spec
import Mathlib.Analysis.SpecialFunctions.Exp
import Mathlib.Data.EReal.Basic
import Mathlib.Data.EReal.Operations
import Mathlib.Data.EReal.Inv

noncomputable section

namespace Cert.Attn.Softmax

open Cert.Attn.Spec Idealize.ShloMosaic Idealize.ShloMosaic.ValueIdx

/-! ## Real numbers among the extended reals -/

/-- The sum of two reals is a real. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- The product of two reals is a real. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- A finite sum of real numbers, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is a real. -/
theorem real_sum {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (hf a (Finset.mem_insert_self a s)) (ih fun i hi => hf i (Finset.mem_insert_of_mem hi))

/-- The scale is the real number one eighth. -/
theorem eighth_real : ∃ r : ℝ, eighth = (r : EReal) := by
  refine ⟨1 / 8, ?_⟩
  simp [eighth, Ideal.ofBits, Ideal.ieee, -EReal.coe_mul]
  norm_num

/-- The word of minus infinity is the least extended real. -/
theorem ninf_eq_bot : ninf = ⊥ := by
  simp [ninf, Ideal.ofBits, Ideal.ieee]

/-- A maximum folded from the least element over a finite set is the least element, the set being empty, or the
    value at one of the set's points. -/
theorem fold_max_mem {ι : Type*} (s : Finset ι) (f : ι → EReal) :
    (s = ∅ ∧ s.fold max ⊥ f = ⊥) ∨ ∃ m ∈ s, s.fold max ⊥ f = f m := by
  classical
  induction s using Finset.induction_on with
  | empty => exact Or.inl ⟨rfl, Finset.fold_empty⟩
  | insert a s ha ih =>
    right
    rw [Finset.fold_insert ha]
    rcases ih with ⟨_, h0⟩ | ⟨m, hm, hfm⟩
    · exact ⟨a, Finset.mem_insert_self a s, by rw [h0, max_bot_right]⟩
    · rcases max_choice (f a) (s.fold max ⊥ f) with h1 | h1
      · exact ⟨a, Finset.mem_insert_self a s, h1⟩
      · exact ⟨m, Finset.mem_insert_of_mem hm, by rw [h1, hfm]⟩

/-- Division by a non-zero real distributes over a finite sum of products of reals. -/
theorem div_sum {ι : Type*} [Fintype ι] (p v : ι → ℝ) (D : ℝ) (hD : D ≠ 0) :
    Ideal.div (∑ i, (p i : EReal) * (v i : EReal)) (D : EReal)
      = ∑ i, Ideal.div (p i : EReal) (D : EReal) * (v i : EReal) := by
  rw [Ideal.div_coe hD]
  simp_rw [Ideal.div_coe hD, ← EReal.coe_mul]
  rw [coe_sum, coe_sum, ← EReal.coe_mul, Finset.sum_mul]
  congr 1
  exact Finset.sum_congr rfl fun i _ => by ring

/-! ## The two orders of the division -/

/-- With every entry of the input, of the projection matrix and of the bias a real number, the two orders of the
    softmax's division agree. -/
theorem attK_eq_attR (x : (⟨3, ![4, 2048, 1024]⟩ : Shape).Idx → EReal) (w : (⟨2, ![3072, 1024]⟩ : Shape).Idx → EReal)
    (g : (⟨2, ![2048, 2048]⟩ : Shape).Idx → EReal)
    (hx : ∀ i, ∃ r : ℝ, x i = (r : EReal)) (hw : ∀ i, ∃ r : ℝ, w i = (r : EReal)) (hg : ∀ i, ∃ r : ℝ, g i = (r : EReal)) :
    attK x w g = attR x w g := by
  funext b h n d
  -- every projected feature is a finite sum of products of reals
  have hq : ∀ (b : Fin 4) (n : Fin 2048) (f : Fin 3072), ∃ r : ℝ, qkv x w b n f = (r : EReal) := fun b n f =>
    real_sum _ _ fun c _ => real_mul (hx _) (hw _)
  -- so every score is real
  have hs : ∀ m : Fin 2048, ∃ r : ℝ, sc x w g b h n m = (r : EReal) := fun m =>
    real_add (real_mul (real_sum _ _ fun e _ => real_mul (hq _ _ _) (hq _ _ _)) eighth_real) (hg _)
  choose s hs using hs
  -- the row's maximum is one of the scores
  obtain ⟨M, hM⟩ : ∃ M : ℝ, mx x w g b h n = (M : EReal) := by
    have := fold_max_mem (Finset.univ : Finset (Fin 2048)) (fun m => sc x w g b h n m)
    rcases this with ⟨h0, _⟩ | ⟨m, _, hm⟩
    · exact absurd h0 Finset.univ_nonempty.ne_empty
    · exact ⟨s m, by rw [mx, ninf_eq_bot, hm, hs m]⟩
  -- the exponentials are positive reals
  have hp : ∀ m : Fin 2048, pe x w g b h n m = ((Real.exp (s m - M) : ℝ) : EReal) := fun m => by
    rw [pe, hs m, hM, ← EReal.coe_sub, Ideal.exp_coe]
  -- and so is their sum
  have hden : den x w g b h n = ((∑ m : Fin 2048, Real.exp (s m - M) : ℝ) : EReal) := by
    rw [den, ← coe_sum]
    exact Finset.sum_congr rfl fun m _ => hp m
  have hD : (∑ m : Fin 2048, Real.exp (s m - M)) ≠ 0 :=
    (Finset.sum_pos (fun m _ => Real.exp_pos _) Finset.univ_nonempty).ne'
  -- the values are real
  choose v hv using fun m : Fin 2048 => hq b m (feat 2 h d)
  rw [attK, attR, hden]
  simp_rw [hp, hv]
  exact div_sum _ _ _ hD

end Cert.Attn.Softmax

end
-- ==== Proof.Finite.lean ====
/-
  The precondition read: where `finite_inputs` holds, every entry of the input, of the first projection matrix and of
  the bias is a real number.
-/
import proofs.«420827_j28252294873693_3_alg».proof.Pre_finite_inputs
import proofs.«420827_j28252294873693_3_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Attn.Finite

open Cert.Pre_finite_inputs Idealize.ShloMosaic Idealize.ShloMosaic.ValueIdx

/-- The word of +inf denotes the top extended real. -/
theorem inf_word : Ideal.ofBits .f32 0x7F800000#32 = (⊤ : EReal) := by
  simp [Ideal.ofBits, Ideal.ieee]

/-- An extended real whose absolute value `max x (-x)` lies strictly below the top is a real number: the top has
    absolute value the top, and so has the bottom (its negation is the top). -/
theorem real_of_abs_lt_top (x : EReal) (h : max x (-x) < ⊤) : ∃ r : ℝ, x = (r : EReal) := by
  induction x using EReal.rec with
  | bot => simp at h
  | coe r => exact ⟨r, rfl⟩
  | top => simp at h

/-- One element of the test: the compare `|x| < +inf` being the one-bit word 1 makes `x` a real number. -/
theorem real_of_cmp (x : Ideal .f32)
    (h : FloatOps.cmpf .olt (FloatOps.hostAbsf x) (Ideal.ofBits .f32 0x7F800000#32) = 1#1) :
    ∃ r : ℝ, x = (r : EReal) := by
  rw [Ideal.hostAbsf_def, Ideal.cmpf_def, Ideal.absf_def, inf_word] at h
  refine real_of_abs_lt_top x ?_
  by_contra hn
  simp [Ideal.cmp, hn] at h

/-- The rank-0 shape has one index. -/
instance : Subsingleton S_.Idx := ⟨fun a b => funext fun d => d.elim0⟩

/-- `all(|a| < +inf)`: the conjunction over all axes of the elementwise test, being 1, gives the test at every index,
    so every entry of `a` is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
      (cmpf .olt (Host.absf a) (broadcastInDim s ![] hb (constant (F := Ideal) S_ .f32 0x7F800000#32))) init hr hu j
        = 1#1) :
    ∀ i, ∃ r : ℝ, a i = (r : EReal) := fun i =>
  real_of_cmp (a i) (Host.reduce_andi_all _ init hr hu j e i)

/-- `finite_inputs` all ones makes the entries of arguments 0, 1 and 4 real numbers. -/
theorem real_of_pre (a0 : FVec Ideal S4x2048x1024 .f32) (a1 : FVec Ideal S3072x1024 .f32) (a2 : FVec Ideal S1024x1024 .f32)
    (a3 : FVec Ideal S1024 .f32) (a4 : FVec Ideal S2048x2048 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a4 i = (r : EReal)) := by
  -- the predicate is the conjunction (((all0 ∧ all1) ∧ all2) ∧ all3) ∧ all4 of the five per-argument tests
  have h0 := congrFun h ValueIdx.ix0
  dsimp only [fn, fn_part1] at h0
  obtain ⟨h18, h22⟩ := IntOp.andi_eq_one.1 h0
  obtain ⟨h13, -⟩ := IntOp.andi_eq_one.1 h18
  obtain ⟨h8, -⟩ := IntOp.andi_eq_one.1 h13
  obtain ⟨h3, h7⟩ := IntOp.andi_eq_one.1 h8
  exact ⟨real_of_all a0 _ _ _ _ _ h3, real_of_all a1 _ _ _ _ _ h7, real_of_all a4 _ _ _ _ _ h22⟩

end Cert.Attn.Finite

end
-- ==== Proof.lean ====
/-
  Multi-head self-attention with a shared additive bias (batch 4, sequence 2048, width 1024, 16 heads of 64), computed
  by three tiled stages — the projection to queries, keys and values; per head, scaled scores plus the bias, a row
  softmax and the weighted sum of the values; the output projection plus its bias — against the same computation
  written with whole-array contractions.

  On the extended reals the two programs differ in one place only: the kernel divides the weighted sum of the values
  by the row's sum of exponentials, the reference divides each exponential first.  Where every input is finite the
  scores are real numbers, so the exponentials and their sum are positive reals and the two orders agree (module
  Softmax); every other step is the same sum of the same products, read through different layouts (a change of float
  format is the identity on the extended reals, and a tiled matrix product is the whole one).

  The kernel's result is read off its run stage by stage (Reg0, Reg1, Reg2: what each stage leaves in its output
  array; HostRead1, HostRead2: the reshapes, transposes and slices between the stages; Compose: their composition),
  the reference's off its own run (RefScore, RefAtt, RefOut), and both are the output projection of the attention
  stated in Spec.
-/
import proofs.«420827_j28252294873693_3_alg».proof.Defs
import proofs.«420827_j28252294873693_3_alg».proof.Proof.Gen.Kernel
import proofs.«420827_j28252294873693_3_alg».proof.Proof.Gen.Kernel.Frame
import proofs.«420827_j28252294873693_3_alg».proof.Proof.Gen.KernelIdeal
import proofs.«420827_j28252294873693_3_alg».proof.Proof.Gen.KernelIdeal.Frame
import proofs.«420827_j28252294873693_3_alg».proof.Proof.Gen.ReferenceIdeal
import proofs.«420827_j28252294873693_3_alg».proof.Proof.Gen.Pre_finite_inputs
import proofs.«420827_j28252294873693_3_alg».proof.Proof.Gen.ReferenceIdeal.Run
import proofs.«420827_j28252294873693_3_alg».proof.Proof.Gen.ReferenceIdeal.Read
import proofs.«420827_j28252294873693_3_alg».proof.Proof.KRun
import proofs.«420827_j28252294873693_3_alg».proof.Proof.Compose
import proofs.«420827_j28252294873693_3_alg».proof.Proof.RefOut
import proofs.«420827_j28252294873693_3_alg».proof.Proof.Softmax
import proofs.«420827_j28252294873693_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments as launched. -/
theorem frame_k : Cert.frame_Kernel := fun m ρ _ => Cert.Kernel.Gen.frame m ρ
/-- So does the kernel read on the extended reals. -/
theorem frame_ki : Cert.frame_KernelIdeal := fun m ρ _ => Cert.KernelIdeal.Gen.frame m ρ
/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on finite arguments both programs end with the same result: the kernel's, read at
    `(b, n, o)`, is the output projection of the attention with the division last; the reference's, with the division
    first; the two attentions agree on real inputs. -/
theorem algebraic : Cert.algebraic_KernelIdeal_ReferenceIdeal := by
  intro m ρ m' ρ' hpre hagree
  refine ⟨fun c => Cert.KernelIdeal.Gen.W7 (F := Ideal) m ρ c (Proc.devRef .tc Cert.KernelIdeal.main_v24),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  beta_reduce
  obtain ⟨hx, hw, hg⟩ := Cert.Attn.Finite.real_of_pre _ _ _ _ _ (hpre c)
  rw [Cert.ReferenceIdeal.Read.val_main_v32_eq, (hagree c).1, (hagree c).2.1, (hagree c).2.2.1, (hagree c).2.2.2.1,
    (hagree c).2.2.2.2]
  funext i
  obtain ⟨b, n, o, rfl⟩ : ∃ (b : Fin 4) (n : Fin 2048) (o : Fin 1024), i = ix3 b n o := ⟨i 0, i 1, i 2, eq_ix3 i⟩
  rw [Cert.Attn.RefOut.rval, Cert.Attn.Compose.kval, Cert.Attn.Softmax.attK_eq_attR _ _ _ hx hw hg]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
